-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_

variable [Facts]

def fn {F : FTy → Type} [FloatOps F] (main_arg0 : FVec F S10000x128 .f32) (main_arg1 : IVec S640000 32) (main_arg2 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S640000 32 := broadcastInDim S640000 ![] bcast_S_S640000 main_c_0
  let main_v5 : IVec S640000 1 := cmpi .sge main_arg1 main_v4
  let main_c_1 : IVec S_ 1 := constantI S_ 1 1#1
  let main_v6 : IVec S_ 1 := (fun x v => Host.reduce IntOp.andi x v reducesTo_S640000_S_d0 h_S_) main_v5 main_c_1
  let main_v7 : IVec S_ 1 := andi main_v3 main_v6
  let main_c_2 : IVec S_ 32 := constantI S_ 32 10000#32
  let main_v8 : IVec S640000 32 := broadcastInDim S640000 ![] bcast_S_S640000 main_c_2
  let main_v9 : IVec S640000 1 := cmpi .slt main_arg1 main_v8
  let main_c_3 : IVec S_ 1 := constantI S_ 1 1#1
  let main_v10 : IVec S_ 1 := (fun x v => Host.reduce IntOp.andi x v reducesTo_S640000_S_d0 h_S_) main_v9 main_c_3
  let main_v11 : IVec S_ 1 := andi main_v7 main_v10
  main_v11
-- ==== Kernel.lean ====
abbrev S10000x128 : Shape := ⟨2, ![10000, 128]⟩
abbrev S640000 : Shape := ⟨1, ![640000]⟩
abbrev S_ : Shape := ⟨0, ![]⟩
abbrev S10112x128 : Shape := ⟨2, ![10112, 128]⟩
abbrev S1 : Shape := ⟨1, ![1]⟩
abbrev S2x320000x1 : Shape := ⟨3, ![2, 320000, 1]⟩
abbrev S2x10112x256 : Shape := ⟨3, ![2, 10112, 256]⟩
abbrev S1x256x1 : Shape := ⟨3, ![1, 256, 1]⟩
abbrev S1x10112x256 : Shape := ⟨3, ![1, 10112, 256]⟩
abbrev S10112x256 : Shape := ⟨2, ![10112, 256]⟩
abbrev S256x1 : Shape := ⟨2, ![256, 1]⟩
abbrev S1x10112 : Shape := ⟨2, ![1, 10112]⟩
abbrev S256x10112 : Shape := ⟨2, ![256, 10112]⟩
abbrev S256x128 : Shape := ⟨2, ![256, 128]⟩
abbrev S256x256 : Shape := ⟨2, ![256, 256]⟩
abbrev S10112x1 : Shape := ⟨2, ![10112, 1]⟩
abbrev S10112 : Shape := ⟨1, ![10112]⟩

abbrev nBuf : Space → Nat
  | .hbm => 28
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S_, .f32⟩
  | .hbm, ⟨4, _⟩ => ⟨S10112x128, .f32⟩
  | .hbm, ⟨5, _⟩ => ⟨S_, .i32⟩
  | .hbm, ⟨6, _⟩ => ⟨S1, .i32⟩
  | .hbm, ⟨7, _⟩ => ⟨S10112x128, .f32⟩
  | .hbm, ⟨8, _⟩ => ⟨S10112x128, .bf16⟩
  | .hbm, ⟨9, _⟩ => ⟨S2x320000x1, .i32⟩
  | .hbm, ⟨10, _⟩ => ⟨S2x320000x1, .i32⟩
  | .hbm, ⟨11, _⟩ => ⟨S2x10112x256, .f32⟩
  | .hbm, ⟨12, _⟩ => ⟨S1x10112x256, .f32⟩
  | .hbm, ⟨13, _⟩ => ⟨S10112x256, .f32⟩
  | .hbm, ⟨14, _⟩ => ⟨S1x10112x256, .f32⟩
  | .hbm, ⟨15, _⟩ => ⟨S10112x256, .f32⟩
  | .hbm, ⟨16, _⟩ => ⟨S10112x256, .f32⟩
  | .hbm, ⟨17, _⟩ => ⟨S10112x128, .f32⟩
  | .hbm, ⟨18, _⟩ => ⟨S10112x1, .f32⟩
  | .hbm, ⟨19, _⟩ => ⟨S10112, .f32⟩
  | .hbm, ⟨20, _⟩ => ⟨S_, .f32⟩
  | .hbm, ⟨21, _⟩ => ⟨S10112, .f32⟩
  | .hbm, ⟨22, _⟩ => ⟨S10112, .f32⟩
  | .hbm, ⟨23, _⟩ => ⟨S10112, .f32⟩
  | .hbm, ⟨24, _⟩ => ⟨S10112x1, .f32⟩
  | .hbm, ⟨25, _⟩ => ⟨S10112x128, .f32⟩
  | .hbm, ⟨26, _⟩ => ⟨S10112x128, .f32⟩
  | .hbm, ⟨27, _⟩ => ⟨S10000x128, .f32⟩
  | .local _ .vmem, ⟨0, _⟩ => ⟨S10112x128, .bf16⟩
  | .local _ .vmem, ⟨1, _⟩ => ⟨S1x256x1, .i32⟩
  | .local _ .vmem, ⟨2, _⟩ => ⟨S1x256x1, .i32⟩
  | .local _ .vmem, ⟨3, _⟩ => ⟨S1x256x1, .i32⟩
  | .local _ .vmem, ⟨4, _⟩ => ⟨S1x256x1, .i32⟩
  | .local _ .vmem, ⟨5, _⟩ => ⟨S1x10112x256, .f32⟩
  | .local _ .vmem, ⟨6, _⟩ => ⟨S1x10112x256, .f32⟩
  | .local _ .vmem, ⟨7, _⟩ => ⟨S10112x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v32 : BitVec 1 := Scalar.cmpi .eq arg1 c1249_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10112x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10112x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S10112x128 : S_.BroadcastsInDim S10112x128 (![] : Fin 0 → Fin S10112x128.rank)
  bcast_S_S1 : S_.BroadcastsInDim S1 (![] : Fin 0 → Fin S1.rank)
  bitsLt_bf16_f32 : FTy.bits .bf16 < FTy.bits .f32
  shapeCasts_S640000_S2x320000x1 : S640000.ShapeCasts S2x320000x1
  inb_S10112x256_S10112x256_0_0 : ∀ a, (![0, 0] : Fin 2 → Nat) a + S10112x256.size a ≤ S10112x256.size a
  h_S10112x256 : 0 < S10112x256.numel
  shapeCasts_S10112x256_S10112x256 : S10112x256.ShapeCasts S10112x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S1x10112_d1_w32 : S1x10112.Iotas .tc 32 [1]
  broadcasts_S256x1_S256x10112 : S256x1.Broadcasts S256x10112
  broadcasts_S1x10112_S256x10112 : S1x10112.Broadcasts S256x10112
  natLt_1_32 : 1 < 32
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  concatenates_S256x128_S256x128_S256x256_d1 : Shape.Concatenates [S256x128, S256x128] S256x256 1
  inb_S1x10112x256_S1x10112x256_0_0_0 : ∀ a, (![0, 0, 0] : Fin 3 → Nat) a + S1x10112x256.size a ≤ S1x10112x256.size a
  h_S1x10112x256 : 0 < S1x10112x256.numel
  shapeCasts_S1x10112x256_S10112x256 : S1x10112x256.ShapeCasts S10112x256
  shapeCasts_S10112x256_S1x10112x256 : S10112x256.ShapeCasts S1x10112x256
  slices_S2x10112x256_S1x10112x256_0_0_0 : S2x10112x256.Slices ![0, 0, 0] S1x10112x256
  slices_S2x10112x256_S1x10112x256_1_0_0 : S2x10112x256.Slices ![1, 0, 0] S1x10112x256
  slices_S10112x256_S10112x128_0_0 : S10112x256.Slices ![0, 0] S10112x128
  slices_S10112x256_S10112x1_0_128 : S10112x256.Slices ![0, 128] S10112x1
  shapeCasts_S10112x1_S10112 : S10112x1.ShapeCasts S10112
  bcast_S_S10112 : S_.BroadcastsInDim S10112 (![] : Fin 0 → Fin S10112.rank)
  bcast_S10112_S10112x1_0 : S10112.BroadcastsInDim S10112x1 (![0] : Fin 1 → Fin S10112x1.rank)
  bcast_S10112x1_S10112x128_0_1 : S10112x1.BroadcastsInDim S10112x128 (![0, 1] : Fin 2 → Fin S10112x128.rank)
  slices_S10112x128_S10000x128_0_0 : S10112x128.Slices ![0, 0] S10000x128
  scatter_S10112x128_S1_S10000x128_01_n_0_0_wf : ScatterDims.WF S10112x128 S1 S10000x128 [0, 1] [] [0] 0
  dot_S256x10112_S10112x128_S256x128_1_0_0_1_n_n_wf : DotDims.WF S256x10112 S10112x128 S256x128 [1] [0] [0] [1] [] []
  dot_S256x10112_S256x256_S10112x256_0_0_1_1_n_n_wf : DotDims.WF S256x10112 S256x256 S10112x256 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10112x128.size a ≤ S10112x128.size a
  hwx0_0 : ∀ i : grid0.Coords, EltTy.bits .bf16 = 32 ∨ (Rect.block (s := S10112x128) S10112x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S2x320000x1.size a
  hwx0_1 : ∀ i : grid0.Coords, EltTy.bits .i32 = 32 ∨ (Rect.block (s := S2x320000x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x320000x1.size a
  hwx0_2 : ∀ i : grid0.Coords, EltTy.bits .i32 = 32 ∨ (Rect.block (s := S2x320000x1) S1x256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10112x256.size a ≤ S2x10112x256.size a
  hwx0_3 : ∀ i : grid0.Coords, EltTy.bits .f32 = 32 ∨ (Rect.block (s := S2x10112x256) S1x10112x256.size (cc0_transform_3 i) (hinb0_3 i)).WholeWords (EltTy.packing .f32)

variable [Facts₀]

def scatter_S10112x128_S1_S10000x128_01_n_0_0 : ScatterDims S10112x128 S1 S10000x128 where
  updateWindowDims := [0, 1]
  insertedWindowDims := []
  scatterDimsToOperandDims := [0]
  indexVectorDim := 0
  wf := scatter_S10112x128_S1_S10000x128_01_n_0_0_wf
def dot_S256x10112_S10112x128_S256x128_1_0_0_1_n_n : DotDims S256x10112 S10112x128 S256x128 where
  lhsContracting := [1]
  rhsContracting := [0]
  lhsNonContracting := [0]
  rhsNonContracting := [1]
  lhsBatch := []
  rhsBatch := []
  wf := dot_S256x10112_S10112x128_S256x128_1_0_0_1_n_n_wf
def dot_S256x10112_S256x256_S10112x256_0_0_1_1_n_n : DotDims S256x10112 S256x256 S10112x256 where
  lhsContracting := [0]
  rhsContracting := [0]
  lhsNonContracting := [1]
  rhsNonContracting := [1]
  lhsBatch := []
  rhsBatch := []
  wf := dot_S256x10112_S256x256_S10112x256_0_0_1_1_n_n_wf

abbrev win0_0 : Pipeline.Window sig grid0 :=
  Pipeline.Window.ofSpec (Memref.whole main_v3) S10112x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x10112x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S_, .i32⟩
  | .hbm, ⟨4, _⟩ => ⟨S640000, .i32⟩
  | .hbm, ⟨5, _⟩ => ⟨S640000, .i1⟩
  | .hbm, ⟨6, _⟩ => ⟨S_, .i32⟩
  | .hbm, ⟨7, _⟩ => ⟨S640000, .i32⟩
  | .hbm, ⟨8, _⟩ => ⟨S640000, .i32⟩
  | .hbm, ⟨9, _⟩ => ⟨S640000, .i32⟩
  | .hbm, ⟨10, _⟩ => ⟨S640000x1, .i32⟩
  | .hbm, ⟨11, _⟩ => ⟨S640000x128, .f32⟩
  | .hbm, ⟨12, _⟩ => ⟨S_, .f32⟩
  | .hbm, ⟨13, _⟩ => ⟨S10000x128, .f32⟩
  | .hbm, ⟨14, _⟩ => ⟨S640000x1, .i32⟩
  | .hbm, ⟨15, _⟩ => ⟨S10000x128, .f32⟩
  | .hbm, ⟨16, _⟩ => ⟨S_, .f32⟩
  | .hbm, ⟨17, _⟩ => ⟨S640000, .f32⟩
  | .hbm, ⟨18, _⟩ => ⟨S_, .f32⟩
  | .hbm, ⟨19, _⟩ => ⟨S10000, .f32⟩
  | .hbm, ⟨20, _⟩ => ⟨S640000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x128, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.KernelPieces.lean ====
/-
  What each control case of the kernel body leaves behind, as values.

  The body resets the accumulator at a core's first grid point, always adds the point's contribution to it, and at a
  core's last point copies it to the output block. So in every case the accumulator ends at the update payload of
  the point's three input blocks over what it held (the zero payload after a reset), and in the last-point case the
  output block ends at the copy payload of that.
-/
import proofs.«419427_j20615843020934_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable {F : FTy → Type} [FloatOps F]

/-- The zero offsets of a rank-2 and of a rank-3 whole-block access, as constant functions. -/
private theorem zero_offsets_rank2 : (![0, 0] : Fin 2 → Nat) = fun _ => 0 := funext fun a => by fin_cases a <;> rfl
private theorem zero_offsets_rank3 : (![0, 0, 0] : Fin 3 → Nat) = fun _ => 0 := funext fun a => by fin_cases a <;> rfl

/-- First point of a core (reset, then update): the accumulator ends at the update over the zero payload. -/
theorem sout_A (c : Dev nD) (i : grid0.Coords) (arg2 : Memref sig .tc .vmem S10112x128 .bf16) (harg2 : arg2.IsWhole) (arg3 : Memref sig .tc .vmem S1x256x1 .i32) (harg3 : arg3.IsWhole) (arg4 : Memref sig .tc .vmem S1x256x1 .i32) (harg4 : arg4.IsWhole) (arg5 : Memref sig .tc .vmem S1x10112x256 .f32) (harg5 : arg5.IsWhole) (arg6 : Memref sig .tc .vmem S10112x256 .f32) (harg6 : arg6.IsWhole) (hc0 : cond0_0 i) (hc1 : ¬cond0_1 i) (x0 : Vec F S10112x128 .bf16) (x1 : Vec F S1x256x1 .i32) (x2 : Vec F S1x256x1 .i32) :
    sout0_A_0 (F := F) c i arg2 harg2 arg3 harg3 arg4 harg4 arg5 harg5 arg6 harg6 hc0 hc1 x0 x1 x2 = k0_pay2 x1 x2 x0 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S10112x256) zero_offsets_rank2, View.readCov_unit_zero (S := S10112x256) _ zero_offsets_rank2]
  simp only [View.readAt_eq_ld, harg2.read_unread, harg3.read_unread, harg4.read_unread, harg5.read_unread, harg6.read_unread, View.ld_unit_zero (S := S10112x256) zero_offsets_rank2, View.ld_unit_zero (S := S10112x128) zero_offsets_rank2, View.ld_unit_zero (S := S1x256x1) zero_offsets_rank3, View.ld_unit_zero (S := S1x10112x256) zero_offsets_rank3]

/-- A middle point (update only): the accumulator ends at the update over what it held. -/
theorem sout_B (c : Dev nD) (i : grid0.Coords) (arg2 : Memref sig .tc .vmem S10112x128 .bf16) (harg2 : arg2.IsWhole) (arg3 : Memref sig .tc .vmem S1x256x1 .i32) (harg3 : arg3.IsWhole) (arg4 : Memref sig .tc .vmem S1x256x1 .i32) (harg4 : arg4.IsWhole) (arg5 : Memref sig .tc .vmem S1x10112x256 .f32) (harg5 : arg5.IsWhole) (arg6 : Memref sig .tc .vmem S10112x256 .f32) (harg6 : arg6.IsWhole) (hc0 : ¬cond0_0 i) (hc1 : ¬cond0_1 i) (x0 : Vec F S10112x128 .bf16) (x1 : Vec F S1x256x1 .i32) (x2 : Vec F S1x256x1 .i32) (xs0 : Vec F S10112x256 .f32) :
    sout0_B_0 (F := F) c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero zero_offsets_rank2]
  simp only [View.readAt_eq_ld, harg2.read_unread, harg3.read_unread, harg4.read_unread, harg5.read_unread, harg6.read_unread, View.ld_unit_zero (S := S10112x256) zero_offsets_rank2, View.ld_unit_zero (S := S10112x128) zero_offsets_rank2, View.ld_unit_zero (S := S1x256x1) zero_offsets_rank3, View.ld_unit_zero (S := S1x10112x256) zero_offsets_rank3]

/-- Last point of a core (update, then copy out): the accumulator ends at the update over what it held, -/
theorem sout_C (c : Dev nD) (i : grid0.Coords) (arg2 : Memref sig .tc .vmem S10112x128 .bf16) (harg2 : arg2.IsWhole) (arg3 : Memref sig .tc .vmem S1x256x1 .i32) (harg3 : arg3.IsWhole) (arg4 : Memref sig .tc .vmem S1x256x1 .i32) (harg4 : arg4.IsWhole) (arg5 : Memref sig .tc .vmem S1x10112x256 .f32) (harg5 : arg5.IsWhole) (arg6 : Memref sig .tc .vmem S10112x256 .f32) (harg6 : arg6.IsWhole) (hc0 : ¬cond0_0 i) (hc1 : cond0_1 i) (x0 : Vec F S10112x128 .bf16) (x1 : Vec F S1x256x1 .i32) (x2 : Vec F S1x256x1 .i32) (xs0 : Vec F S10112x256 .f32) :
    sout0_C_0 (F := F) c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S10112x256) zero_offsets_rank2]
  simp only [View.readAt_eq_ld, harg2.read_unread, harg3.read_unread, harg4.read_unread, harg5.read_unread, harg6.read_unread, View.ld_unit_zero (S := S10112x256) zero_offsets_rank2, View.ld_unit_zero (S := S10112x128) zero_offsets_rank2, View.ld_unit_zero (S := S1x256x1) zero_offsets_rank3, View.ld_unit_zero (S := S1x10112x256) zero_offsets_rank3]

/-- and the output block at the copy of that. -/
theorem out_C (c : Dev nD) (i : grid0.Coords) (arg2 : Memref sig .tc .vmem S10112x128 .bf16) (harg2 : arg2.IsWhole) (arg3 : Memref sig .tc .vmem S1x256x1 .i32) (harg3 : arg3.IsWhole) (arg4 : Memref sig .tc .vmem S1x256x1 .i32) (harg4 : arg4.IsWhole) (arg5 : Memref sig .tc .vmem S1x10112x256 .f32) (harg5 : arg5.IsWhole) (arg6 : Memref sig .tc .vmem S10112x256 .f32) (harg6 : arg6.IsWhole) (hc0 : ¬cond0_0 i) (hc1 : cond0_1 i) (x0 : Vec F S10112x128 .bf16) (x1 : Vec F S1x256x1 .i32) (x2 : Vec F S1x256x1 .i32) (xs0 : Vec F S10112x256 .f32) :
    out0_C_3 (F := F) c i arg2 harg2 arg3 harg3 arg4 harg4 arg5 harg5 arg6 harg6 hc0 hc1 x0 x1 x2 xs0 = k0_pay3 (k0_pay2 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x10112x256) zero_offsets_rank3, View.readCov_unit_zero (S := S10112x256) _ zero_offsets_rank2]
  simp only [View.readAt_eq_ld, harg2.read_unread, harg3.read_unread, harg4.read_unread, harg5.read_unread, harg6.read_unread, View.ld_unit_zero (S := S10112x256) zero_offsets_rank2, View.ld_unit_zero (S := S10112x128) zero_offsets_rank2, View.ld_unit_zero (S := S1x256x1) zero_offsets_rank3, View.ld_unit_zero (S := S1x10112x256) zero_offsets_rank3]

end Cert.KernelIdeal.Val

end
-- ==== Proof.Spec.lean ====
/-
  The mathematics both programs compute, stated once over plain index types.

  An edge `e` of the 640000 carries a source word and a destination word. Edge `e` LANDS on node `n` when its
  destination word, read signed, is `n`. Over the edges landing on `n`:
    agg n d = the sum of feature row `row (src e)`, column `d`      (the aggregated messages),
    deg n   = the number of such edges                               (the in-degree),
  and the result at `(n, d)` is `agg n d · (max (deg n) 1)^(-1/2)`.
  `row s` is the source word read signed and clamped into the table's rows `[0, 9999]`.

  The laws below are what joins the two programs' spellings of the normaliser: the degree is a natural number, so
  `max (deg n) 1` is a real `≥ 1`, where the reciprocal square root and the power `-1/2` are one function.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GraphAgg

/-- The feature table's shape and the edge lists' shape. -/
abbrev SFeat : Shape := ⟨2, ![10000, 128]⟩
abbrev SEdge : Shape := ⟨1, ![640000]⟩

/-- The table row a source word reads: signed, clamped into `[0, 9999]`. -/
def row (s : BitVec 32) : Fin 10000 := ⟨min s.toInt.toNat 9999, by omega⟩

/-- The edges that land on node `n`. -/
def hit (dst : Fin 640000 → BitVec 32) (n : Fin 10000) : Finset (Fin 640000) :=
  Finset.univ.filter fun e => (dst e).toInt = (n.val : Int)

/-- The aggregated messages at node `n`, column `d`. -/
def agg (feat : Fin 10000 → Fin 128 → EReal) (src dst : Fin 640000 → BitVec 32) (n : Fin 10000) (d : Fin 128) : EReal :=
  ∑ e ∈ hit dst n, feat (row (src e)) d

/-- The in-degree of node `n`, as an extended real. -/
def deg (dst : Fin 640000 → BitVec 32) (n : Fin 10000) : EReal :=
  ∑ _e ∈ hit dst n, (1 : EReal)

/-- The result at `(n, d)`. -/
def G (feat : Fin 10000 → Fin 128 → EReal) (src dst : Fin 640000 → BitVec 32) (n : Fin 10000) (d : Fin 128) : EReal :=
  agg feat src dst n d * Ideal.rsqrt (max (deg dst n) 1)

/-- The result as an array over the table's shape, of the three argument arrays. -/
def GV (feat : SFeat.Idx → EReal) (src dst : SEdge.Idx → BitVec 32) : SFeat.Idx → EReal :=
  fun i => G (fun r d => feat (ix2 r d)) (fun e => src (ix1 e)) (fun e => dst (ix1 e)) (i 0) (i 1)

/-! ## The kernel's spelling: one-hot products, block by block

  The kernel never indexes: it compares a word with every node number `0 … 10111` and multiplies by the 0/1 answer.
  One grid point stages 256 consecutive edges; `contrib` is what that point adds to the accumulator at row `n`,
  column `j`: over its 256 edges, (the edge lands on `n`) times the edge's extended row — the gathered feature row
  in columns `0 … 127`, the constant one in columns `128 … 255` (so those columns count the degree). -/

/-- The 0/1 answer of a word comparison, as an extended real. -/
def onehot (a b : BitVec 32) : EReal := if a = b then 1 else 0

/-- An edge's extended row at column `j`: the table row its source word selects (a sum of one-hot products over all
    10112 padded rows) for `j < 128`, the constant `1` beyond. -/
def ext (s : BitVec 32) (tbl : Fin 10112 → Fin 128 → EReal) (j : Fin 256) : EReal :=
  if h : j.val < 128 then ∑ k : Fin 10112, onehot s (BitVec.ofNat 32 k.val) * tbl k ⟨j.val, h⟩ else 1

/-- What one grid point adds at `(n, j)`: over its 256 edges. -/
def contrib (s d : Fin 256 → BitVec 32) (tbl : Fin 10112 → Fin 128 → EReal) (n : Fin 10112) (j : Fin 256) : EReal :=
  ∑ e : Fin 256, onehot (d e) (BitVec.ofNat 32 n.val) * ext (s e) tbl j

/-- The edge that grid point `t` (in row-major order over the 2 × 1250 grid) stages at position `e`:
    `256 t + e` (reduced mod 640000 only to be total; it is below 640000 for `t < 2500`). -/
def edgeOf (t : ℕ) (e : Fin 256) : Fin 640000 := ⟨(256 * t + e.val) % 640000, Nat.mod_lt _ (by decide)⟩

/-- The feature table padded with zero rows `10000 … 10111`. -/
def padTbl (feat : Fin 10000 → Fin 128 → EReal) (k : Fin 10112) (d : Fin 128) : EReal :=
  if h : k.val < 10000 then feat ⟨k.val, h⟩ d else 0

/-- Grid point `t`'s contribution, of the argument arrays. -/
def blockContrib (feat : Fin 10000 → Fin 128 → EReal) (src dst : Fin 640000 → BitVec 32) (t : ℕ) (n : Fin 10112) (j : Fin 256) : EReal :=
  contrib (fun e => src (edgeOf t e)) (fun e => dst (edgeOf t e)) (padTbl feat) n j

/-! ## The literals both programs spell -/

theorem ofBits_one_f32 : Ideal.ofBits .f32 0x3F800000#32 = (1 : EReal) := by
  simp [Ideal.ofBits, Ideal.ieee, -EReal.coe_mul]; norm_num

theorem ofBits_one_bf16 : Ideal.ofBits .bf16 0x3F80#16 = (1 : EReal) := by
  simp [Ideal.ofBits, Ideal.ieee, -EReal.coe_mul]; norm_num

theorem ofBits_neg_half_f32 : Ideal.ofBits .f32 0xBF000000#32 = ((-(1 / 2) : ℝ) : EReal) := by
  simp [Ideal.ofBits, Ideal.ieee, -EReal.coe_mul]; norm_num

/-! ## The degree is a count; on reals at least one the two normalisers agree -/

theorem deg_eq_card (dst : Fin 640000 → BitVec 32) (n : Fin 10000) :
    deg dst n = (((hit dst n).card : ℝ) : EReal) := by
  unfold deg
  rw [Finset.sum_const, nsmul_one]
  exact (EReal.coe_coe_eq_natCast _).symm

/-- For a count `k`: `(max k 1)` raised to the literal `-0.5` is the reciprocal square root of `max k 1`. -/
theorem pow_neg_half_eq_rsqrt (k : ℕ) :
    Ideal.pow (max (((k : ℝ) : EReal)) 1) (Ideal.ofBits .f32 0xBF000000#32) = Ideal.rsqrt (max (((k : ℝ) : EReal)) 1) := by
  -- the base is a real number at least one
  have hbase : max (((k : ℝ) : EReal)) 1 = ((max (k : ℝ) 1 : ℝ) : EReal) := by
    rw [← EReal.coe_one]
    exact (EReal.coe_strictMono.monotone.map_max).symm
  have hone : (1 : ℝ) ≤ max (k : ℝ) 1 := le_max_right _ _
  have hpos : (0 : ℝ) < max (k : ℝ) 1 := lt_of_lt_of_le one_pos hone
  rw [ofBits_neg_half_f32, hbase, Ideal.pow_coe_coe, Ideal.rsqrt_coe,
    if_neg (not_lt.mpr hpos.le), if_neg hpos.ne']
  -- on a positive real, the power -1/2 is the inverse of the power 1/2, which is the square root
  refine congrArg (fun x : ℝ => (x : EReal)) ?_
  show (max (k : ℝ) 1) ^ (-(1 / 2) : ℝ) = (Real.sqrt (max (k : ℝ) 1))⁻¹
  rw [Real.rpow_neg hpos.le, Real.sqrt_eq_rpow]

/-- The same, at the degree. -/
theorem pow_deg_eq_rsqrt (dst : Fin 640000 → BitVec 32) (n : Fin 10000) :
    Ideal.pow (max (deg dst n) 1) (Ideal.ofBits .f32 0xBF000000#32) = Ideal.rsqrt (max (deg dst n) 1) := by
  rw [deg_eq_card]; exact pow_neg_half_eq_rsqrt _

end Cert.GraphAgg

end
-- ==== Proof.KernelPay.lean ====
/-
  The body's three payloads read at an index, over the extended reals.

  The update payload at `(n, j)` is what the accumulator held there plus the point's contribution: the second matrix
  product contracts the 256 edges of the block, its left factor the one-hot comparison of the destination words with
  the node numbers, its right factor the concatenation of the first product (one-hot of the source words against the
  table: the gathered rows) with a block of ones.
-/
import proofs.«419427_j20615843020934_1_alg».proof.Proof.Gen.KernelIdeal.Skeleton
import proofs.«419427_j20615843020934_1_alg».proof.Proof.Spec
import Idealize.ShloMosaic.PureOps.Ideal.Laws
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

/-! ## The two matrix products' operand indices, axis by axis

  At output index `i` and contraction position `q`: the first product reads its left factor at `(i 0, q)` and its right
  factor at `(q, i 1)`; the second product contracts the FIRST axis of both factors, so it reads its left factor at
  `(q, i 0)` and its right factor at `(q, i 1)`. One statement per operand axis, at the literal axes `0` and `1`. -/

private theorem lhs_gather_0 (i : S256x128.Idx) (q : dot_S256x10112_S10112x128_S256x128_1_0_0_1_n_n.contr.Idx) :
    (dot_S256x10112_S10112x128_S256x128_1_0_0_1_n_n.lhsIdx i q 0).val = (i 0).val := by
  unfold DotDims.lhsIdx
  rw [dif_neg (show ¬(0 : Fin S256x10112.rank) ∈ dot_S256x10112_S10112x128_S256x128_1_0_0_1_n_n.lhsBatch by decide),
    dif_pos (show (0 : Fin S256x10112.rank) ∈ dot_S256x10112_S10112x128_S256x128_1_0_0_1_n_n.lhsNonContracting by decide)]
  rfl

private theorem lhs_gather_1 (i : S256x128.Idx) (q : dot_S256x10112_S10112x128_S256x128_1_0_0_1_n_n.contr.Idx) :
    (dot_S256x10112_S10112x128_S256x128_1_0_0_1_n_n.lhsIdx i q 1).val = (q ⟨0, by decide⟩).val :=
  dot_S256x10112_S10112x128_S256x128_1_0_0_1_n_n.lhsIdx_val_of_single rfl i q

private theorem rhs_gather_0 (i : S256x128.Idx) (q : dot_S256x10112_S10112x128_S256x128_1_0_0_1_n_n.contr.Idx) :
    (dot_S256x10112_S10112x128_S256x128_1_0_0_1_n_n.rhsIdx i q 0).val = (q ⟨0, by decide⟩).val :=
  dot_S256x10112_S10112x128_S256x128_1_0_0_1_n_n.rhsIdx_val_of_single rfl i q

private theorem rhs_gather_1 (i : S256x128.Idx) (q : dot_S256x10112_S10112x128_S256x128_1_0_0_1_n_n.contr.Idx) :
    (dot_S256x10112_S10112x128_S256x128_1_0_0_1_n_n.rhsIdx i q 1).val = (i 1).val := by
  unfold DotDims.rhsIdx
  rw [dif_neg (show ¬(1 : Fin S10112x128.rank) ∈ dot_S256x10112_S10112x128_S256x128_1_0_0_1_n_n.rhsBatch by decide),
    dif_pos (show (1 : Fin S10112x128.rank) ∈ dot_S256x10112_S10112x128_S256x128_1_0_0_1_n_n.rhsNonContracting by decide)]
  rfl

private theorem lhs_scatter_0 (i : S10112x256.Idx) (q : dot_S256x10112_S256x256_S10112x256_0_0_1_1_n_n.contr.Idx) :
    (dot_S256x10112_S256x256_S10112x256_0_0_1_1_n_n.lhsIdx i q 0).val = (q ⟨0, by decide⟩).val :=
  dot_S256x10112_S256x256_S10112x256_0_0_1_1_n_n.lhsIdx_val_of_single rfl i q

private theorem lhs_scatter_1 (i : S10112x256.Idx) (q : dot_S256x10112_S256x256_S10112x256_0_0_1_1_n_n.contr.Idx) :
    (dot_S256x10112_S256x256_S10112x256_0_0_1_1_n_n.lhsIdx i q 1).val = (i 0).val := by
  unfold DotDims.lhsIdx
  rw [dif_neg (show ¬(1 : Fin S256x10112.rank) ∈ dot_S256x10112_S256x256_S10112x256_0_0_1_1_n_n.lhsBatch by decide),
    dif_pos (show (1 : Fin S256x10112.rank) ∈ dot_S256x10112_S256x256_S10112x256_0_0_1_1_n_n.lhsNonContracting by decide)]
  rfl

private theorem rhs_scatter_0 (i : S10112x256.Idx) (q : dot_S256x10112_S256x256_S10112x256_0_0_1_1_n_n.contr.Idx) :
    (dot_S256x10112_S256x256_S10112x256_0_0_1_1_n_n.rhsIdx i q 0).val = (q ⟨0, by decide⟩).val :=
  dot_S256x10112_S256x256_S10112x256_0_0_1_1_n_n.rhsIdx_val_of_single rfl i q

private theorem rhs_scatter_1 (i : S10112x256.Idx) (q : dot_S256x10112_S256x256_S10112x256_0_0_1_1_n_n.contr.Idx) :
    (dot_S256x10112_S256x256_S10112x256_0_0_1_1_n_n.rhsIdx i q 1).val = (i 1).val := by
  unfold DotDims.rhsIdx
  rw [dif_neg (show ¬(1 : Fin S256x256.rank) ∈ dot_S256x10112_S256x256_S10112x256_0_0_1_1_n_n.rhsBatch by decide),
    dif_pos (show (1 : Fin S256x256.rank) ∈ dot_S256x10112_S256x256_S10112x256_0_0_1_1_n_n.rhsNonContracting by decide)]
  rfl

/-- The first product into zeros at `(e, d)`: row `e` of the left factor against column `d` of the right, over the
    10112 table rows. -/
private theorem matmul_gather_apply (L : FVec Ideal S256x10112 .bf16) (R : FVec Ideal S10112x128 .bf16) (e : Fin 256) (d : Fin 128) :
    matmul dot_S256x10112_S10112x128_S256x128_1_0_0_1_n_n none L R (constant (F := Ideal) S256x128 .f32 0x00000000#32) (ix2 e d)
      = ∑ k : Fin 10112, L (ix2 e k) * R (ix2 k d) := by
  simp only [matmul]
  rw [Ideal.matmul_constant_zero_apply,
    ← Equiv.sum_comp (contrEquiv1 dot_S256x10112_S10112x128_S256x128_1_0_0_1_n_n 10112 rfl rfl).symm]
  refine Finset.sum_congr rfl fun k _ => ?_
  have hk := contrEquiv1_symm_val dot_S256x10112_S10112x128_S256x128_1_0_0_1_n_n 10112 rfl rfl k
  have el : dot_S256x10112_S10112x128_S256x128_1_0_0_1_n_n.lhsIdx (ix2 e d)
      ((contrEquiv1 dot_S256x10112_S10112x128_S256x128_1_0_0_1_n_n 10112 rfl rfl).symm k) = ix2 e k :=
    funext fun a => Fin.ext (by
      match a with
      | ⟨0, _⟩ => exact lhs_gather_0 _ _
      | ⟨1, _⟩ => exact (lhs_gather_1 _ _).trans hk)
  have er : dot_S256x10112_S10112x128_S256x128_1_0_0_1_n_n.rhsIdx (ix2 e d)
      ((contrEquiv1 dot_S256x10112_S10112x128_S256x128_1_0_0_1_n_n 10112 rfl rfl).symm k) = ix2 k d :=
    funext fun a => Fin.ext (by
      match a with
      | ⟨0, _⟩ => exact (rhs_gather_0 _ _).trans hk
      | ⟨1, _⟩ => exact rhs_gather_1 _ _)
  rw [el, er]

/-- The second product into zeros at `(n, j)`: COLUMN `n` of the left factor (it is used transposed) against column
    `j` of the right, over the block's 256 edges. -/
private theorem matmul_scatter_apply (L : FVec Ideal S256x10112 .bf16) (R : FVec Ideal S256x256 .bf16) (n : Fin 10112) (j : Fin 256) :
    matmul dot_S256x10112_S256x256_S10112x256_0_0_1_1_n_n none L R (constant (F := Ideal) S10112x256 .f32 0x00000000#32) (ix2 n j)
      = ∑ e : Fin 256, L (ix2 e n) * R (ix2 e j) := by
  simp only [matmul]
  rw [Ideal.matmul_constant_zero_apply,
    ← Equiv.sum_comp (contrEquiv1 dot_S256x10112_S256x256_S10112x256_0_0_1_1_n_n 256 rfl rfl).symm]
  refine Finset.sum_congr rfl fun e _ => ?_
  have hk := contrEquiv1_symm_val dot_S256x10112_S256x256_S10112x256_0_0_1_1_n_n 256 rfl rfl e
  have el : dot_S256x10112_S256x256_S10112x256_0_0_1_1_n_n.lhsIdx (ix2 n j)
      ((contrEquiv1 dot_S256x10112_S256x256_S10112x256_0_0_1_1_n_n 256 rfl rfl).symm e) = ix2 e n :=
    funext fun a => Fin.ext (by
      match a with
      | ⟨0, _⟩ => exact (lhs_scatter_0 _ _).trans hk
      | ⟨1, _⟩ => exact lhs_scatter_1 _ _)
  have er : dot_S256x10112_S256x256_S10112x256_0_0_1_1_n_n.rhsIdx (ix2 n j)
      ((contrEquiv1 dot_S256x10112_S256x256_S10112x256_0_0_1_1_n_n 256 rfl rfl).symm e) = ix2 e j :=
    funext fun a => Fin.ext (by
      match a with
      | ⟨0, _⟩ => exact (rhs_scatter_0 _ _).trans hk
      | ⟨1, _⟩ => exact rhs_scatter_1 _ _)
  rw [el, er]

/-! ## The one-hot matrices and the extended rows, entry by entry -/

/-- The compare word (one bit: equal or not), widened to 32 bits and read as a float, is the 0/1 answer. -/
private theorem sitofp_cmpi_eq (a b : BitVec 32) :
    (FloatOps.sitofp (F := Ideal) .f32 ((IntOp.cmpi .eq a b).setWidth 32) : Ideal .f32) = onehot a b := by
  show ((((IntOp.cmpi .eq a b).setWidth 32).toInt : ℝ) : EReal) = onehot a b
  unfold onehot
  by_cases h : a = b
  · subst h
    have hc : IntOp.cmpi .eq a a = 1#1 := by simp [IntOp.cmpi]
    have h1 : (BitVec.setWidth 32 1#1).toInt = 1 := by decide
    rw [hc, if_pos rfl, h1]; simp
  · have hc : IntOp.cmpi .eq a b = 0#1 := by simp [IntOp.cmpi, beq_eq_false_iff_ne.mpr h]
    have h0 : (BitVec.setWidth 32 0#1).toInt = 0 := by decide
    rw [hc, if_neg h, h0]; simp

/-- A column `[256, 1]` broadcast to `[256, 10112]` reads, at `(e, k)`, the column at `e`. -/
private theorem broadcastTo_col_apply {α : Type} (v : S256x1.Idx → α) (e : Fin 256) (k : Fin 10112) :
    broadcastTo S256x10112 v broadcasts_S256x1_S256x10112 (ix2 e k) = v (ix2 e (0 : Fin 1)) := by
  refine broadcastTo_apply v _ (ix2 e k) (ix2 e (0 : Fin 1)) fun ax => ?_
  match ax with
  | ⟨0, _⟩ =>
    exact (if_neg (by show ¬(256 : ℕ) = 1; decide)).symm
  | ⟨1, _⟩ =>
    exact (if_pos rfl).symm

/-- Entry `(e, k)` of the one-hot matrix the body builds from a block's 256 words `w`: word `e` against node number `k`. -/
private theorem onehotMat_apply (w : Vec Ideal S1x256x1 .i32) (e : Fin 256) (k : Fin 10112) :
    (truncf .bf16 (sitofp .f32 (extui 32 (cmpi .eq
        (broadcastTo S256x10112 (shapeCast S256x1 w shapeCasts_S1x256x1_S256x1) broadcasts_S256x1_S256x10112)
        (broadcastTo S256x10112 (iota .tc S1x10112 32 [1] iota_S1x10112_d1_w32) broadcasts_S1x10112_S256x10112)) natLt_1_32))
      bitsLt_bf16_f32 : FVec Ideal S256x10112 .bf16) (ix2 e k) = onehot (w (ix3 0 e 0)) (BitVec.ofNat 32 k.val) := by
  show FloatOps.sitofp (F := Ideal) .f32 ((IntOp.cmpi .eq
      (broadcastTo S256x10112 (shapeCast S256x1 w shapeCasts_S1x256x1_S256x1) broadcasts_S256x1_S256x10112 (ix2 e k))
      (broadcastTo S256x10112 (iota .tc S1x10112 32 [1] iota_S1x10112_d1_w32) broadcasts_S1x10112_S256x10112 (ix2 e k))).setWidth 32) = _
  rw [broadcastTo_col_apply, broadcastTo_1b_ab_apply, shapeCast_1ab_ab_apply, iota_single_apply]
  exact sitofp_cmpi_eq _ _

/-- Entry `(e, j)` of the concatenation of a `[256, 128]` matrix `G` with a block of ones: `G` in columns below 128,
    one beyond. -/
private theorem extMat_apply (G : FVec Ideal S256x128 .f32) (e : Fin 256) (j : Fin 256) :
    (concatenate S256x256 1 [⟨S256x128, (truncf .bf16 G bitsLt_bf16_f32 : FVec Ideal S256x128 .bf16)⟩,
        ⟨S256x128, (broadcast S256x128 (FloatOps.ofBits (F := Ideal) .bf16 0x3F80#16) : FVec Ideal S256x128 .bf16)⟩]
      concatenates_S256x128_S256x128_S256x256_d1 : FVec Ideal S256x256 .bf16) (ix2 e j)
      = if h : j.val < 128 then G (ix2 e ⟨j.val, h⟩) else 1 := by
  by_cases h : j.val < 128
  · rw [dif_pos h]
    refine (concatenate_pair_apply_left (1 : Fin S256x256.rank) _ _ concatenates_S256x128_S256x128_S256x256_d1 (ix2 e j) rfl
      (ix2 e ⟨j.val, h⟩) (fun b => by match b with | ⟨0, _⟩ => rfl | ⟨1, _⟩ => rfl)).trans ?_
    rfl
  · rw [dif_neg h]
    have hj := j.isLt
    refine (concatenate_pair_apply_right (1 : Fin S256x256.rank) _ _ concatenates_S256x128_S256x128_S256x256_d1 (ix2 e j) rfl rfl
      (ix2 e ⟨j.val - 128, by omega⟩) (fun b hb => by
        match b with
        | ⟨0, _⟩ => rfl
        | ⟨1, _⟩ => exact absurd rfl hb) (by show j.val - 128 + 128 = j.val; omega)).trans ?_
    exact ofBits_one_bf16

/-- The reset payload is zero everywhere. -/
theorem pay1_apply (n : Fin 10112) (j : Fin 256) : k0_pay1 (F := Ideal) (ix2 n j) = 0 := by
  unfold k0_pay1
  refine (congrFun (shapeCast_self _ _) _).trans ?_
  exact Ideal.ofBits_zero_f32

/-- The update payload at `(n, j)`. -/
theorem pay2_apply (v3 v5 : Vec Ideal S1x256x1 .i32) (v20 : Vec Ideal S10112x128 .bf16) (v27 : Vec Ideal S10112x256 .f32)
    (n : Fin 10112) (j : Fin 256) :
    k0_pay2 (F := Ideal) v3 v5 v20 v27 (ix2 n j)
      = v27 (ix2 n j) + contrib (fun e => v3 (ix3 0 e 0)) (fun e => v5 (ix3 0 e 0)) (fun k d => v20 (ix2 k d)) n j := by
  unfold k0_pay2
  refine (congrFun (shapeCast_self _ _) _).trans ?_
  rw [addf_apply]
  refine congrArg (v27 (ix2 n j) + ·) ?_
  rw [matmul_scatter_apply]
  unfold contrib
  refine Finset.sum_congr rfl fun e _ => ?_
  rw [onehotMat_apply, extMat_apply]
  congr 1
  unfold ext
  by_cases h : j.val < 128
  · rw [dif_pos h, dif_pos h, matmul_gather_apply]
    refine Finset.sum_congr rfl fun k _ => ?_
    rw [onehotMat_apply, shapeCast_self]
  · rw [dif_neg h, dif_neg h]

/-- The copy payload only adds a unit axis. -/
theorem pay3_apply (v35 : Vec Ideal S10112x256 .f32) (n : Fin 10112) (j : Fin 256) :
    k0_pay3 (F := Ideal) v35 (ix3 0 n j) = v35 (ix2 n j) := by
  unfold k0_pay3
  exact shapeCast_ab_1ab_apply v35 _ 0 n j

end Cert.KernelIdeal.Val

end
-- ==== Proof.KernelBlocks.lean ====
/-
  The kernel's input blocks, as functions of the arrays the region finds and of the arguments.

  The table window's block is the whole padded table at every point (what the padded table holds is
  Proof/KernelTable.lean). The edge windows'
  block at grid point `t` holds the 256 words `256 t … 256 t + 255` of the source and destination lists: the lists
  are reshaped to 2 × 320000 × 1, point `t` is (core `t / 1250`, block `t % 1250`), and 320000 = 1250 · 256.
-/
import proofs.«419427_j20615843020934_1_alg».proof.Proof.Gen.KernelIdeal.Frame
import proofs.«419427_j20615843020934_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

variable (m : (ℓ : Loc nD τ sig) → Buf (Elt Ideal) ℓ)

/-- The three argument arrays on core `c`, over plain indices. -/
abbrev featOf (c : Dev nD) : Fin 10000 → Fin 128 → EReal := fun r d => m ((c.tc : Thread nD τ).loc main_arg0) (ix2 r d)
abbrev srcOf (c : Dev nD) : Fin 640000 → BitVec 32 := fun e => m ((c.tc : Thread nD τ).loc main_arg1) (ix1 e)
abbrev dstOf (c : Dev nD) : Fin 640000 → BitVec 32 := fun e => m ((c.tc : Thread nD τ).loc main_arg2) (ix1 e)

/-- The table window sits at block (0, 0) at every point. -/
private theorem tblIndex : ∀ t : Fin cfg0.N, win0_0.index t 0 = 0 ∧ win0_0.index t 1 = 0 := by
  decide +kernel

/-- Block (0, 0) of extents 10112 × 128 of a 10112 × 128 array is the array, whatever it holds: position `(r, d)` of
    the block is position `(0 · 10112 + r, 0 · 128 + d)` of the array. -/
private theorem tblBlock_read (t : Fin cfg0.N) (x : S10112x128.Idx → EReal) :
    (((cfg0.win 0).blk t).view.read (Elt Ideal) x : S10112x128.Idx → EReal) = x := by
  obtain ⟨h0, h1⟩ := tblIndex t
  funext j
  rw [View.read_apply]
  refine congrArg x ?_
  funext a
  apply Fin.ext
  match a with
  | ⟨0, _⟩ => show win0_0.index t 0 * 10112 + 1 * (j 0).val = (j 0).val
              rw [h0]; omega
  | ⟨1, _⟩ => show win0_0.index t 1 * 128 + 1 * (j 1).val = (j 1).val
              rw [h1]; omega

/-- The table window's block is the whole padded table, at every point. -/
theorem iblk0_eq (c : Dev nD) (t : Fin cfg0.N) : (iblk m c 0 t : Vec Ideal S10112x128 .bf16) = V m c main_v3 := by
  unfold iblk
  exact tblBlock_read t (V m c main_v3)

/-- The list reshaped to 2 × 320000 × 1 holds, at `(q, r, 0)`, the word `320000 q + r`: both are at the same
    row-major position. -/
private theorem reshape_apply {α : Type} (x : S640000.Idx → α) (h : S640000.ShapeCasts S2x320000x1)
    (q : Fin 2) (r : Fin 320000) (u : Fin 1) (k : Fin 640000) (hk : k.val = 320000 * q.val + r.val) :
    shapeCast S2x320000x1 x h (ix3 q r u) = x (ix1 k) :=
  shapeCast_apply x h _ _ (by
    rw [Shape.rowMajor_val_three, Shape.rowMajor_val_one]
    show k.val = (q.val * 320000 + r.val) * 1 + u.val
    omega)

/-- What the region finds in the reshaped source list: the source argument, reshaped. -/
private theorem srcArr_eq (c : Dev nD) : (V m c main_v4 : S2x320000x1.Idx → BitVec 32)
    = shapeCast S2x320000x1 (m ((c.tc : Thread nD τ).loc main_arg1)) shapeCasts_S640000_S2x320000x1 := by
  show StableHlo.after hostOps0 (fun b => m (c, b)) (Proc.devRef .tc main_v4) = _
  after_results
  rfl

/-- What the region finds in the reshaped destination list: the destination argument, reshaped. -/
private theorem dstArr_eq (c : Dev nD) : (V m c main_v5 : S2x320000x1.Idx → BitVec 32)
    = shapeCast S2x320000x1 (m ((c.tc : Thread nD τ).loc main_arg2)) shapeCasts_S640000_S2x320000x1 := by
  show StableHlo.after hostOps0 (fun b => m (c, b)) (Proc.devRef .tc main_v5) = _
  after_results
  rfl

/-- The source window's block index at point `t`: (core `t / 1250`, block `t % 1250`, 0). -/
private theorem srcIndex : ∀ t : Fin cfg0.N,
    win0_1.index t 0 = t.val / 1250 ∧ win0_1.index t 1 = t.val % 1250 ∧ win0_1.index t 2 = 0 := by
  decide +kernel

/-- The destination window's block index at point `t`: the same. -/
private theorem dstIndex : ∀ t : Fin cfg0.N,
    win0_2.index t 0 = t.val / 1250 ∧ win0_2.index t 1 = t.val % 1250 ∧ win0_2.index t 2 = 0 := by
  decide +kernel

/-- The source window's block at point `t`: words `256 t + e` of the source list. -/
theorem iblk1_apply (c : Dev nD) (t : Fin cfg0.N) (e : Fin 256) :
    (iblk m c 1 t : Vec Ideal S1x256x1 .i32) (ix3 0 e 0) = srcOf m c (edgeOf t.val e) := by
  have hN : t.val < 2500 := t.isLt
  obtain ⟨h0, h1, h2⟩ := srcIndex t
  have hq : t.val / 1250 < 2 := by omega
  have hr : 256 * (t.val % 1250) + e.val < 320000 := by omega
  unfold iblk
  rw [View.read_apply]
  show V m c main_v4 _ = _
  rw [srcArr_eq]
  -- position (0, e, 0) of the block is position (t / 1250, 256 (t % 1250) + e, 0) of the reshaped list
  have hemb : ((cfg0.win 1).blk t).view.emb (ix3 0 e 0)
      = ix3 (⟨t.val / 1250, hq⟩ : Fin 2) (⟨256 * (t.val % 1250) + e.val, hr⟩ : Fin 320000) (0 : Fin 1) := by
    funext a
    apply Fin.ext
    match a with
    | ⟨0, _⟩ => show win0_1.index t 0 * 1 + 1 * (0 : Fin 1).val = t.val / 1250
                rw [h0]; simp
    | ⟨1, _⟩ => show win0_1.index t 1 * 256 + 1 * e.val = 256 * (t.val % 1250) + e.val
                rw [h1]; omega
    | ⟨2, _⟩ => show win0_1.index t 2 * 1 + 1 * (0 : Fin 1).val = (0 : Fin 1).val
                rw [h2]; simp
  rw [hemb]
  -- and 320000 (t / 1250) + 256 (t % 1250) + e = 256 t + e, below 640000
  refine reshape_apply _ _ _ _ _ (edgeOf t.val e) ?_
  show (256 * t.val + e.val) % 640000 = 320000 * (t.val / 1250) + (256 * (t.val % 1250) + e.val)
  omega

/-- The destination window's block at point `t`: words `256 t + e` of the destination list. -/
theorem iblk2_apply (c : Dev nD) (t : Fin cfg0.N) (e : Fin 256) :
    (iblk m c 2 t : Vec Ideal S1x256x1 .i32) (ix3 0 e 0) = dstOf m c (edgeOf t.val e) := by
  have hN : t.val < 2500 := t.isLt
  obtain ⟨h0, h1, h2⟩ := dstIndex t
  have hq : t.val / 1250 < 2 := by omega
  have hr : 256 * (t.val % 1250) + e.val < 320000 := by omega
  unfold iblk
  rw [View.read_apply]
  show V m c main_v5 _ = _
  rw [dstArr_eq]
  have hemb : ((cfg0.win 2).blk t).view.emb (ix3 0 e 0)
      = ix3 (⟨t.val / 1250, hq⟩ : Fin 2) (⟨256 * (t.val % 1250) + e.val, hr⟩ : Fin 320000) (0 : Fin 1) := by
    funext a
    apply Fin.ext
    match a with
    | ⟨0, _⟩ => show win0_2.index t 0 * 1 + 1 * (0 : Fin 1).val = t.val / 1250
                rw [h0]; simp
    | ⟨1, _⟩ => show win0_2.index t 1 * 256 + 1 * e.val = 256 * (t.val % 1250) + e.val
                rw [h1]; omega
    | ⟨2, _⟩ => show win0_2.index t 2 * 1 + 1 * (0 : Fin 1).val = (0 : Fin 1).val
                rw [h2]; simp
  rw [hemb]
  refine reshape_apply _ _ _ _ _ (edgeOf t.val e) ?_
  show (256 * t.val + e.val) % 640000 = 320000 * (t.val / 1250) + (256 * (t.val % 1250) + e.val)
  omega

end Cert.KernelIdeal.Val

end
-- ==== Proof.KernelTable.lean ====
/-
  The padded table the host prepares before the region: the features in rows `0 … 9999`, zero in rows
  `10000 … 10111`. The host writes the whole feature array into a zero array of 10112 rows at row offset 0 (each
  position of the update lands on its own position of the result, so the order of the writes does not matter) and
  then changes the float format, which is the identity over the extended reals.
-/
import proofs.«419427_j20615843020934_1_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

/-! ## A left fold of steps, read at one position

  A step may change the array at position `i` (it "hits" `i`) or leave it alone. If no step of the list hits `i`,
  the fold leaves position `i` as it was; if exactly one step does, and a hitting step overwrites position `i` with
  a value `v n` that does not depend on the array so far, the fold leaves `v n` there, wherever in the list that step
  stands. -/

private theorem foldl_keep {ι κ α : Type} (step : (κ → α) → ι → κ → α) (i : κ) (hits : ι → Prop)
    (hmiss : ∀ r n, ¬ hits n → step r n i = r i) :
    ∀ (l : List ι) (x : κ → α), (∀ n ∈ l, ¬ hits n) → l.foldl step x i = x i := by
  intro l
  induction l with
  | nil => intro x _; rfl
  | cons a t ih =>
    intro x h
    rw [List.foldl_cons, ih _ (fun n hn => h n (List.mem_cons_of_mem _ hn))]
    exact hmiss x a (h a (List.mem_cons_self ..))

private theorem foldl_hit {ι κ α : Type} (step : (κ → α) → ι → κ → α) (i : κ) (hits : ι → Prop) (v : ι → α)
    (hmiss : ∀ r n, ¬ hits n → step r n i = r i) (hhit : ∀ r n, hits n → step r n i = v n)
    (n0 : ι) (h0 : hits n0) :
    ∀ (l : List ι) (x : κ → α), l.Nodup → n0 ∈ l → (∀ n ∈ l, hits n → n = n0) → l.foldl step x i = v n0 := by
  intro l
  induction l with
  | nil => intro x _ hm; exact absurd hm List.not_mem_nil
  | cons a t ih =>
    intro x hnd hm huniq
    rw [List.foldl_cons]
    have hnd' := List.nodup_cons.mp hnd
    by_cases ha : a = n0
    · have hk : ∀ n ∈ t, ¬ hits n := fun n hn hh =>
        hnd'.1 (by rw [ha, ← huniq n (List.mem_cons_of_mem _ hn) hh]; exact hn)
      rw [foldl_keep step i hits hmiss t _ hk, ha]
      exact hhit x n0 h0
    · have hm' : n0 ∈ t := by
        rcases List.mem_cons.mp hm with h | h
        · exact absurd h.symm ha
        · exact h
      exact ih _ hnd'.2 hm' (fun n hn => huniq n (List.mem_cons_of_mem _ hn))

/-! ## Where an update position lands

  With the one start index `0`, the window of the write starts at row 0, column 0, so update position `(p, q)` lands
  on result position `(p, q)`: always inside the 10112 × 128 result. -/

local notation "sd" => scatter_S10112x128_S1_S10000x128_01_n_0_0

private theorem start_eq_zero (idx : IVec S1 32) (hidx : ∀ j, idx j = 0#32) (y : S10000x128.Idx)
    (a : Fin S10112x128.rank) : ScatterDims.start sd y idx a = 0 := by
  unfold ScatterDims.start
  split
  · rw [hidx]; rfl
  · rfl

private theorem window_zero (p : Fin 10000) (q : Fin 128) :
    ScatterDims.window sd (ix2 p q : S10000x128.Idx) (0 : Fin 2) = p.val := by
  rfl

private theorem window_one (p : Fin 10000) (q : Fin 128) :
    ScatterDims.window sd (ix2 p q : S10000x128.Idx) (1 : Fin 2) = q.val := by
  rfl

private theorem resultIdx_eq (idx : IVec S1 32) (hidx : ∀ j, idx j = 0#32) (p : Fin 10000) (q : Fin 128) :
    ScatterDims.resultIdx? sd (ix2 p q : S10000x128.Idx) idx
      = some (ix2 (⟨p.val, by omega⟩ : Fin 10112) q : S10112x128.Idx) := by
  have hs := start_eq_zero idx hidx (ix2 p q)
  have hw0 := window_zero p q
  have hw1 := window_one p q
  have hp := p.isLt
  have hq := q.isLt
  have hcond : ∀ a : Fin S10112x128.rank,
      0 ≤ ScatterDims.start sd (ix2 p q : S10000x128.Idx) idx a + ScatterDims.window sd (ix2 p q : S10000x128.Idx) a
        ∧ ScatterDims.start sd (ix2 p q : S10000x128.Idx) idx a + ScatterDims.window sd (ix2 p q : S10000x128.Idx) a
            < S10112x128.size a := by
    intro a
    rw [hs a]
    match a with
    | ⟨0, _⟩ =>
      show (0 : Int) ≤ 0 + (ScatterDims.window sd (ix2 p q : S10000x128.Idx) (0 : Fin 2) : Int)
        ∧ (0 : Int) + (ScatterDims.window sd (ix2 p q : S10000x128.Idx) (0 : Fin 2) : Int) < ((10112 : Nat) : Int)
      rw [hw0]; omega
    | ⟨1, _⟩ =>
      show (0 : Int) ≤ 0 + (ScatterDims.window sd (ix2 p q : S10000x128.Idx) (1 : Fin 2) : Int)
        ∧ (0 : Int) + (ScatterDims.window sd (ix2 p q : S10000x128.Idx) (1 : Fin 2) : Int) < ((128 : Nat) : Int)
      rw [hw1]; omega
  unfold ScatterDims.resultIdx?
  rw [dif_pos hcond]
  refine congrArg some (funext fun a => Fin.ext ?_)
  match a with
  | ⟨0, _⟩ =>
    show (ScatterDims.start sd (ix2 p q : S10000x128.Idx) idx (0 : Fin 2)
      + (ScatterDims.window sd (ix2 p q : S10000x128.Idx) (0 : Fin 2) : Int)).toNat = p.val
    rw [hs, hw0]; omega
  | ⟨1, _⟩ =>
    show (ScatterDims.start sd (ix2 p q : S10000x128.Idx) idx (1 : Fin 2)
      + (ScatterDims.window sd (ix2 p q : S10000x128.Idx) (1 : Fin 2) : Int)).toNat = q.val
    rw [hs, hw1]; omega

/-! ## The write at a position

  Result position `(k, d)` with `k < 10000` is hit by exactly one update position, `(k, d)` itself, and holds that
  update; with `k ≥ 10000` no update lands there and it keeps what the operand held. -/

private theorem scatter_apply {α : Type} (x : S10112x128.Idx → α) (idx : IVec S1 32) (hidx : ∀ j, idx j = 0#32)
    (upd : S10000x128.Idx → α) (k : Fin 10112) (d : Fin 128) :
    Host.scatter sd (fun _ b => b) x idx upd (ix2 k d)
      = if h : k.val < 10000 then upd (ix2 ⟨k.val, h⟩ d) else x (ix2 k d) := by
  unfold Host.scatter
  have hland : ∀ n : Fin S10000x128.numel, ScatterDims.resultIdx? sd (S10000x128.rowMajor.symm n) idx
      = some (ix2 (⟨((S10000x128.rowMajor.symm n) 0).val, by have := idx2_lt0 (S10000x128.rowMajor.symm n); omega⟩ : Fin 10112)
          ((S10000x128.rowMajor.symm n) 1) : S10112x128.Idx) := by
    intro n
    have e := eq_ix2 (S10000x128.rowMajor.symm n)
    exact (congrArg (fun y => ScatterDims.resultIdx? sd y idx) e).trans (resultIdx_eq idx hidx _ _)
  by_cases h : k.val < 10000
  · rw [dif_pos h]
    refine (foldl_hit _ (ix2 k d)
      (fun n => ScatterDims.resultIdx? sd (S10000x128.rowMajor.symm n) idx = some (ix2 k d))
      (fun n => upd (S10000x128.rowMajor.symm n)) ?_ ?_
      (S10000x128.rowMajor (ix2 ⟨k.val, h⟩ d)) ?_ _ x (List.nodup_finRange _) (List.mem_finRange _) ?_).trans ?_
    · intro r n hn
      dsimp only at hn ⊢
      generalize ScatterDims.resultIdx? sd (S10000x128.rowMajor.symm n) idx = o at hn
      cases o with
      | none => rfl
      | some i => exact if_neg (fun e => hn (congrArg some e.symm))
    · intro r n hn
      dsimp only at hn ⊢
      generalize ScatterDims.resultIdx? sd (S10000x128.rowMajor.symm n) idx = o at hn
      cases o with
      | none => exact absurd hn (by simp)
      | some i => exact if_pos (Option.some.inj hn).symm
    · show ScatterDims.resultIdx? sd (S10000x128.rowMajor.symm (S10000x128.rowMajor (ix2 ⟨k.val, h⟩ d))) idx = _
      rw [Equiv.symm_apply_apply]
      exact resultIdx_eq idx hidx _ _
    · intro n _ hn
      rw [hland n] at hn
      have e := Option.some.inj hn
      have e0 : ((S10000x128.rowMajor.symm n) 0).val = k.val := congrArg (fun j : S10112x128.Idx => (j 0).val) e
      have e1 : ((S10000x128.rowMajor.symm n) 1).val = d.val := congrArg (fun j : S10112x128.Idx => (j 1).val) e
      refine (Equiv.symm_apply_eq _).mp ?_
      refine (eq_ix2 _).trans ?_
      have a0 : ((S10000x128.rowMajor.symm n) 0 : Fin 10000) = ⟨k.val, h⟩ := Fin.ext e0
      have a1 : ((S10000x128.rowMajor.symm n) 1 : Fin 128) = d := Fin.ext e1
      exact congrArg₂ (fun (a : Fin 10000) (b : Fin 128) => (ix2 a b : S10000x128.Idx)) a0 a1
    · show upd (S10000x128.rowMajor.symm (S10000x128.rowMajor (ix2 ⟨k.val, h⟩ d))) = _
      rw [Equiv.symm_apply_apply]
  · rw [dif_neg h]
    refine foldl_keep _ (ix2 k d)
      (fun n => ScatterDims.resultIdx? sd (S10000x128.rowMajor.symm n) idx = some (ix2 k d)) ?_ _ x ?_
    · intro r n hn
      dsimp only at hn ⊢
      generalize ScatterDims.resultIdx? sd (S10000x128.rowMajor.symm n) idx = o at hn
      cases o with
      | none => rfl
      | some i => exact if_neg (fun e => hn (congrArg some e.symm))
    · intro n _ hn
      rw [hland n] at hn
      have e0 : ((S10000x128.rowMajor.symm n) 0).val = k.val :=
        congrArg (fun j : S10112x128.Idx => (j 0).val) (Option.some.inj hn)
      have := idx2_lt0 (S10000x128.rowMajor.symm n)
      omega

variable (m : (ℓ : Loc nD τ sig) → Buf (Elt Ideal) ℓ)

/-- The padded table: the features, then zero rows. -/
theorem tbl_apply (c : Dev nD) (k : Fin 10112) (d : Fin 128) :
    (V m c main_v3 : Vec Ideal S10112x128 .bf16) (ix2 k d) = padTbl (featOf m c) k d := by
  show StableHlo.after hostOps0 (fun b => m (c, b)) (Proc.devRef .tc main_v3) (ix2 k d) = _
  after_results
  rw [truncf_apply]
  refine (scatter_apply _ _ (fun j => rfl) _ k d).trans ?_
  unfold padTbl
  by_cases h : k.val < 10000
  · rw [dif_pos h, dif_pos h]
  · rw [dif_neg h, dif_neg h]
    exact Ideal.ofBits_zero_f32

end Cert.KernelIdeal.Val

end
-- ==== Proof.KernelAccum.lean ====
/-
  The accumulator point by point, and the array the region leaves.

  After grid point `n` the accumulator holds, at `(r, j)`, the sum of the contributions of the points of `n`'s core
  up to `n`: points `n - n % 1250 … n` (the reset at a core's first point starts the sum afresh). Induction on the
  point, by the three control cases. The output array's block `q` (one per core) is written back once, after the
  core's last point, so the array ends at core `q`'s full sum in block `q`: the two blocks cover it.
-/
import proofs.«419427_j20615843020934_1_alg».proof.Proof.KernelPieces
import proofs.«419427_j20615843020934_1_alg».proof.Proof.KernelPay
import proofs.«419427_j20615843020934_1_alg».proof.Proof.KernelBlocks
import proofs.«419427_j20615843020934_1_alg».proof.Proof.KernelTable

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

variable (m : (ℓ : Loc nD τ sig) → Buf (Elt Ideal) ℓ)

/-- What grid point `t` adds at `(r, j)`, read off its three input blocks: the block contribution of the argument
    arrays. -/
private theorem point_contrib (c : Dev nD) (t : Fin cfg0.N) (r : Fin 10112) (j : Fin 256) :
    contrib (fun e => (iblk m c 1 t : Vec Ideal S1x256x1 .i32) (ix3 0 e 0))
        (fun e => (iblk m c 2 t : Vec Ideal S1x256x1 .i32) (ix3 0 e 0))
        (fun k d => (iblk m c 0 t : Vec Ideal S10112x128 .bf16) (ix2 k d)) r j
      = blockContrib (featOf m c) (srcOf m c) (dstOf m c) t.val r j := by
  have e1 : (fun e => (iblk m c 1 t : Vec Ideal S1x256x1 .i32) (ix3 0 e 0)) = fun e => srcOf m c (edgeOf t.val e) :=
    funext fun e => iblk1_apply m c t e
  have e2 : (fun e => (iblk m c 2 t : Vec Ideal S1x256x1 .i32) (ix3 0 e 0)) = fun e => dstOf m c (edgeOf t.val e) :=
    funext fun e => iblk2_apply m c t e
  have e3 : (fun k d => (iblk m c 0 t : Vec Ideal S10112x128 .bf16) (ix2 k d)) = padTbl (featOf m c) :=
    funext fun k => funext fun d => (congrFun (iblk0_eq m c t) (ix2 k d)).trans (tbl_apply m c k d)
  unfold blockContrib
  rw [e1, e2, e3]

/-- At a core's first point the accumulator is reset, so it ends at that point's contribution alone. -/
private theorem scratch_first (c : Dev nD) (t : Fin cfg0.N) (h0 : t.val % 1250 = 0) (r : Fin 10112) (j : Fin 256) :
    (outsAt0 m c t.val t.isLt).2 (ix2 r j) = blockContrib (featOf m c) (srcOf m c) (dstOf m c) t.val r j := by
  have h1 : ¬t.val % 1250 = 1249 := by omega
  rw [outsAt0_A m c t h0 h1]; dsimp only
  refine (congrFun (sout_A (F := Ideal) c (grid0.coords t) (ms0_0 t) (hs0_0 t) (ms0_1 t) (hs0_1 t)
    (ms0_2 t) (hs0_2 t) (ms0_3 t) (hs0_3 t) scM0_0 (Memref.isWhole_whole _)
    ((hcond0_0 t).mpr h0) (fun h' => h1 ((hcond0_1 t).mp h'))
    (iblk m c 0 t) (iblk m c 1 t) (iblk m c 2 t)) (ix2 r j)).trans ?_
  rw [pay2_apply, pay1_apply, zero_add, point_contrib]

/-- At any other point the accumulator ends at what the point before left plus this point's contribution. -/
private theorem scratch_next (c : Dev nD) (t : Fin cfg0.N) (h0 : ¬t.val % 1250 = 0) (r : Fin 10112) (j : Fin 256) :
    (outsAt0 m c t.val t.isLt).2 (ix2 r j)
      = (outsAt0 m c (t.val - 1) (Nat.lt_of_le_of_lt (Nat.sub_le _ _) t.isLt)).2 (ix2 r j)
        + blockContrib (featOf m c) (srcOf m c) (dstOf m c) t.val r j := by
  by_cases h1 : t.val % 1250 = 1249
  · rw [outsAt0_C m c t h0 h1]; dsimp only
    refine (congrFun (sout_C (F := Ideal) c (grid0.coords t) (ms0_0 t) (hs0_0 t) (ms0_1 t) (hs0_1 t)
      (ms0_2 t) (hs0_2 t) (ms0_3 t) (hs0_3 t) scM0_0 (Memref.isWhole_whole _)
      (fun h' => h0 ((hcond0_0 t).mp h')) ((hcond0_1 t).mpr h1)
      (iblk m c 0 t) (iblk m c 1 t) (iblk m c 2 t)
      (outsAt0 m c (t.val - 1) (Nat.lt_of_le_of_lt (Nat.sub_le _ _) t.isLt)).2) (ix2 r j)).trans ?_
    rw [pay2_apply, point_contrib]
  · rw [outsAt0_B m c t h0 h1]; dsimp only
    refine (congrFun (sout_B (F := Ideal) c (grid0.coords t) (ms0_0 t) (hs0_0 t) (ms0_1 t) (hs0_1 t)
      (ms0_2 t) (hs0_2 t) (ms0_3 t) (hs0_3 t) scM0_0 (Memref.isWhole_whole _)
      (fun h' => h0 ((hcond0_0 t).mp h')) (fun h' => h1 ((hcond0_1 t).mp h'))
      (iblk m c 0 t) (iblk m c 1 t) (iblk m c 2 t)
      (outsAt0 m c (t.val - 1) (Nat.lt_of_le_of_lt (Nat.sub_le _ _) t.isLt)).2) (ix2 r j)).trans ?_
    rw [pay2_apply, point_contrib]

/-- The accumulator after point `n`: the contributions of `n`'s core so far. -/
theorem scratch_apply (c : Dev nD) (n : ℕ) (h : n < cfg0.N) (r : Fin 10112) (j : Fin 256) :
    (outsAt0 m c n h).2 (ix2 r j)
      = ∑ t ∈ Finset.Icc (n - n % 1250) n, blockContrib (featOf m c) (srcOf m c) (dstOf m c) t r j := by
  induction n with
  | zero =>
    refine (scratch_first m c ⟨0, h⟩ rfl r j).trans ?_
    show _ = ∑ t ∈ Finset.Icc 0 0, _
    rw [Finset.Icc_self, Finset.sum_singleton]
  | succ n ih =>
    by_cases h0 : (n + 1) % 1250 = 0
    · refine (scratch_first m c ⟨n + 1, h⟩ h0 r j).trans ?_
      rw [h0, Nat.sub_zero, Finset.Icc_self, Finset.sum_singleton]
    · refine (scratch_next m c ⟨n + 1, h⟩ h0 r j).trans ?_
      show (outsAt0 m c n _).2 (ix2 r j) + blockContrib (featOf m c) (srcOf m c) (dstOf m c) (n + 1) r j = _
      rw [ih (Nat.lt_of_succ_lt h)]
      have e : n + 1 - (n + 1) % 1250 = n - n % 1250 := by omega
      rw [e, Finset.sum_Icc_succ_top (by omega)]

/-- At a core's last point the output block is the accumulator with a unit axis added. -/
private theorem block_eq_copy (c : Dev nD) (t : Fin cfg0.N) (h0 : ¬t.val % 1250 = 0) (h1 : t.val % 1250 = 1249) :
    (outsAt0 m c t.val t.isLt).1 = k0_pay3 (F := Ideal) (outsAt0 m c t.val t.isLt).2 := by
  rw [outsAt0_C m c t h0 h1]; dsimp only
  refine (out_C (F := Ideal) c (grid0.coords t) (ms0_0 t) (hs0_0 t) (ms0_1 t) (hs0_1 t)
    (ms0_2 t) (hs0_2 t) (ms0_3 t) (hs0_3 t) scM0_0 (Memref.isWhole_whole _)
    (fun h' => h0 ((hcond0_0 t).mp h')) ((hcond0_1 t).mpr h1)
    (iblk m c 0 t) (iblk m c 1 t) (iblk m c 2 t)
    (outsAt0 m c (t.val - 1) (Nat.lt_of_le_of_lt (Nat.sub_le _ _) t.isLt)).2).trans ?_
  exact congrArg (k0_pay3 (F := Ideal)) (sout_C (F := Ideal) c (grid0.coords t) (ms0_0 t) (hs0_0 t) (ms0_1 t) (hs0_1 t)
    (ms0_2 t) (hs0_2 t) (ms0_3 t) (hs0_3 t) scM0_0 (Memref.isWhole_whole _)
    (fun h' => h0 ((hcond0_0 t).mp h')) ((hcond0_1 t).mpr h1)
    (iblk m c 0 t) (iblk m c 1 t) (iblk m c 2 t)
    (outsAt0 m c (t.val - 1) (Nat.lt_of_le_of_lt (Nat.sub_le _ _) t.isLt)).2).symm

/-- So the output block a core's last point leaves holds, at `(0, r, j)`, the core's 1250 contributions summed. -/
private theorem block_apply (c : Dev nD) (t : Fin cfg0.N) (h1 : t.val % 1250 = 1249) (r : Fin 10112) (j : Fin 256) :
    (outsAt0 m c t.val t.isLt).1 (ix3 0 r j)
      = ∑ t' ∈ Finset.Icc (t.val - 1249) t.val, blockContrib (featOf m c) (srcOf m c) (dstOf m c) t' r j := by
  rw [block_eq_copy m c t (by omega) h1, pay3_apply, scratch_apply, h1]

/-- The sum over a range of points at `(r, j)` depends on the range's ends and on `r`, `j` as numbers only. -/
private theorem sum_congr_idx (c : Dev nD) {a a' b b' : ℕ} (ha : a = a') (hb : b = b') {r r' : Fin 10112} {j j' : Fin 256}
    (hr : r.val = r'.val) (hj : j.val = j'.val) :
    ∑ t ∈ Finset.Icc a b, blockContrib (featOf m c) (srcOf m c) (dstOf m c) t r j
      = ∑ t ∈ Finset.Icc a' b', blockContrib (featOf m c) (srcOf m c) (dstOf m c) t r' j' := by
  obtain rfl := Fin.ext hr
  obtain rfl := Fin.ext hj
  subst ha hb
  rfl

/-- The whole array the region leaves, as a function of the index: at `(q, r, j)` core `q`'s 1250 contributions. -/
private def Out (c : Dev nD) : Vec Ideal S2x10112x256 .f32 := fun i =>
  ∑ t ∈ Finset.Icc (1250 * (i 0).val) (1250 * (i 0).val + 1249),
    blockContrib (featOf m c) (srcOf m c) (dstOf m c) t ⟨(i 1).val, (i 1).isLt⟩ ⟨(i 2).val, (i 2).isLt⟩

/-- The output window's block index at point `t` is (the core `t / 1250`, 0, 0), at each of the 2500 points. -/
private theorem index0_3 : ∀ t : Fin cfg0.N,
    (cfg0.win 3).index t 0 = t.val / 1250 ∧ (cfg0.win 3).index t 1 = 0 ∧ (cfg0.win 3).index t 2 = 0 :=
  (by decide +kernel : ∀ t : Fin grid0.N,
    win0_3.index t 0 = t.val / 1250 ∧ win0_3.index t 1 = 0 ∧ win0_3.index t 2 = 0)

/-- What a write-back writes is its block of that array. -/
private theorem flushed_eq (c : Dev nD) (t : Fin cfg0.N) (hf : (cfg0.win 3).flush t = true) :
    (dats m 0 c).flushed 3 t = ((cfg0.win 3).blk t).view.read (Elt Ideal) (Out m c) := by
  have h1 : t.val % 1250 = 1249 := (flush0_3 t).mp hf
  have hN : t.val < 2500 := lt_of_lt_of_eq t.isLt (show cfg0.N = 2500 from N_0)
  obtain ⟨i0, i1, i2⟩ := index0_3 t
  funext y
  show (cfg0.win 3).cut (grid0.coords t) ((dats m 0 c).after 3 t) y = _
  rw [after0_3, View.read_apply]
  have y0 : (y 0).val < 1 := (y 0).isLt
  have ey : (cfg0.win 3).xinj (grid0.coords t) y
      = ix3 (0 : Fin 1) (⟨(y 1).val, (y 1).isLt⟩ : Fin 10112) (⟨(y 2).val, (y 2).isLt⟩ : Fin 256) := by
    funext a
    match a with
    | ⟨0, _⟩ => exact Fin.ext (by show (y 0).val = 0; omega)
    | ⟨1, _⟩ => rfl
    | ⟨2, _⟩ => rfl
  show (outsAt0 m c t.val t.isLt).1 ((cfg0.win 3).xinj (grid0.coords t) y) = Out m c (((cfg0.win 3).blk t).view.emb y)
  rw [ey, block_apply m c t h1]
  unfold Out
  refine sum_congr_idx m c ?_ ?_ ?_ ?_
  · show t.val - 1249 = 1250 * ((cfg0.win 3).index t 0 * 1 + 1 * (y 0).val)
    rw [i0]; omega
  · show t.val = 1250 * ((cfg0.win 3).index t 0 * 1 + 1 * (y 0).val) + 1249
    rw [i0]; omega
  · show (y 1).val = (cfg0.win 3).index t 1 * 10112 + 1 * (y 1).val
    rw [i1]; omega
  · show (y 2).val = (cfg0.win 3).index t 2 * 256 + 1 * (y 2).val
    rw [i2]; omega

/-- The array the region leaves: block `q` holds core `q`'s 1250 contributions, summed. -/
theorem final_apply (c : Dev nD) (q : Fin 2) (r : Fin 10112) (j : Fin 256) :
    ((dats m 0 c).arrAt 3 cfg0.N : Vec Ideal S2x10112x256 .f32) (ix3 q r j)
      = ∑ t ∈ Finset.Icc (1250 * q.val) (1250 * q.val + 1249), blockContrib (featOf m c) (srcOf m c) (dstOf m c) t r j := by
  have hcover : ∀ i : S2x10112x256.Idx,
      ∃ t : Fin cfg0.N, (cfg0.win 3).flush t = true ∧ i ∈ ((cfg0.win 3).blk t).view.set := fun i => by
    have hi0 : (i 0).val < 2 := (i 0).isLt
    have hi1 : (i 1).val < 10112 := (i 1).isLt
    have hi2 : (i 2).val < 256 := (i 2).isLt
    have hlt : 1250 * (i 0).val + 1249 < cfg0.N := by rw [show cfg0.N = 2500 from N_0]; omega
    obtain ⟨i0, i1, i2⟩ := index0_3 ⟨1250 * (i 0).val + 1249, hlt⟩
    refine ⟨⟨1250 * (i 0).val + 1249, hlt⟩, (flush0_3 _).mpr (by dsimp only; omega), ?_⟩
    show i ∈ ((View.whole main_v6).slice ((cfg0.win 3).rect ⟨1250 * (i 0).val + 1249, hlt⟩)).set
    rw [View.set_slice_whole, Rect.mem_set_unit]
    intro a
    match a with
    | ⟨0, _⟩ =>
      show (cfg0.win 3).index ⟨1250 * (i 0).val + 1249, hlt⟩ 0 * 1 ≤ (i 0 : Nat)
        ∧ (i 0 : Nat) < (cfg0.win 3).index ⟨1250 * (i 0).val + 1249, hlt⟩ 0 * 1 + 1
      rw [i0]; dsimp only; omega
    | ⟨1, _⟩ =>
      show (cfg0.win 3).index ⟨1250 * (i 0).val + 1249, hlt⟩ 1 * 10112 ≤ (i 1 : Nat)
        ∧ (i 1 : Nat) < (cfg0.win 3).index ⟨1250 * (i 0).val + 1249, hlt⟩ 1 * 10112 + 10112
      rw [i1]; omega
    | ⟨2, _⟩ =>
      show (cfg0.win 3).index ⟨1250 * (i 0).val + 1249, hlt⟩ 2 * 256 ≤ (i 2 : Nat)
        ∧ (i 2 : Nat) < (cfg0.win 3).index ⟨1250 * (i 0).val + 1249, hlt⟩ 2 * 256 + 256
      rw [i2]; omega
  have e := (dats m 0 c).arrAt_eq_of_cover 3 (Out m c) (flushed_eq m c) hcover
  refine (congrFun e (ix3 q r j)).trans ?_
  rfl

end Cert.KernelIdeal.Val

end
-- ==== Proof.KernelTail.lean ====
/-
  The host lines after the region, read at an index.

  They add the two cores' blocks, take columns `0 … 127` as the messages and column `128` as the degree, and multiply
  each message row by the reciprocal square root of `max degree 1`; the last line keeps rows `0 … 9999`.
-/
import proofs.«419427_j20615843020934_1_alg».proof.Proof.Gen.KernelIdeal.Frame
import proofs.«419427_j20615843020934_1_alg».proof.Proof.Spec
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

/-- The two cores' blocks added: `[10112, 256]`. -/
def tailSum (A : Vec Ideal S2x10112x256 .f32) : Vec Ideal S10112x256 .f32 :=
  addf (F := Ideal) (φ := .f32)
    (shapeCast S10112x256 (extractStridedSlice S1x10112x256 ![0, 0, 0] A slices_S2x10112x256_S1x10112x256_0_0_0) shapeCasts_S1x10112x256_S10112x256)
    (shapeCast S10112x256 (extractStridedSlice S1x10112x256 ![1, 0, 0] A slices_S2x10112x256_S1x10112x256_1_0_0) shapeCasts_S1x10112x256_S10112x256)

/-- The normaliser of every padded row: the reciprocal square root of `max degree 1`, the degree read in column 128. -/
def tailNorm (A : Vec Ideal S2x10112x256 .f32) : Vec Ideal S10112 .f32 :=
  Host.rsqrt (F := Ideal) (φ := .f32) (maximumf (F := Ideal) (φ := .f32)
    (shapeCast S10112 (extractStridedSlice S10112x1 ![0, 128] (tailSum A) slices_S10112x256_S10112x1_0_128) shapeCasts_S10112x1_S10112)
    (broadcastInDim S10112 ![] bcast_S_S10112 (constant (F := Ideal) S_ .f32 0x3F800000#32)))

/-- The lines after the region as one function of the array the region leaves. -/
def tailFn (A : Vec Ideal S2x10112x256 .f32) : Vec Ideal S10000x128 .f32 :=
  extractStridedSlice S10000x128 ![0, 0]
    (mulf (F := Ideal) (φ := .f32) (extractStridedSlice S10112x128 ![0, 0] (tailSum A) slices_S10112x256_S10112x128_0_0)
      (broadcastInDim S10112x128 ![0, 1] bcast_S10112x1_S10112x128_0_1
        (broadcastInDim S10112x1 ![0] bcast_S10112_S10112x1_0 (tailNorm A))))
    slices_S10112x128_S10000x128_0_0

/-- The added blocks at `(p, q)`: core 0's entry plus core 1's. -/
theorem tailSum_apply (A : Vec Ideal S2x10112x256 .f32) (p : Fin 10112) (q : Fin 256) :
    tailSum A (ix2 p q) = A (ix3 0 p q) + A (ix3 1 p q) := by
  unfold tailSum
  refine (addf_apply _ _ _).trans ?_
  refine congrArg₂ (· + ·) ?_ ?_
  · refine (shapeCast_1ab_ab_apply _ shapeCasts_S1x10112x256_S10112x256 p q).trans ?_
    exact extractStridedSlice_apply _ A slices_S2x10112x256_S1x10112x256_0_0_0 _ (ix3 0 p q) fun a => match a with
      | ⟨0, _⟩ => rfl
      | ⟨1, _⟩ => by show p.val = 0 + p.val; omega
      | ⟨2, _⟩ => by show q.val = 0 + q.val; omega
  · refine (shapeCast_1ab_ab_apply _ shapeCasts_S1x10112x256_S10112x256 p q).trans ?_
    exact extractStridedSlice_apply _ A slices_S2x10112x256_S1x10112x256_1_0_0 _ (ix3 1 p q) fun a => match a with
      | ⟨0, _⟩ => rfl
      | ⟨1, _⟩ => by show p.val = 0 + p.val; omega
      | ⟨2, _⟩ => by show q.val = 0 + q.val; omega

/-- The normaliser at row `p`. -/
theorem tailNorm_apply (A : Vec Ideal S2x10112x256 .f32) (p : Fin 10112) :
    tailNorm A (ix1 p) = Ideal.rsqrt (max (A (ix3 0 p ⟨128, by omega⟩) + A (ix3 1 p ⟨128, by omega⟩)) 1) := by
  unfold tailNorm
  show Ideal.rsqrt (max _ _) = _
  refine congrArg Ideal.rsqrt (congrArg₂ max ?_ ?_)
  · refine (shapeCast_apply _ shapeCasts_S10112x1_S10112 (ix1 p) (ix2 p (0 : Fin 1)) ?_).trans ?_
    · rw [Shape.rowMajor_val_two, Shape.rowMajor_val_one]
      show p.val * 1 + 0 = p.val
      omega
    refine (extractStridedSlice_apply _ (tailSum A) slices_S10112x256_S10112x1_0_128 _ (ix2 p ⟨128, by omega⟩) fun a => match a with
      | ⟨0, _⟩ => by show p.val = 0 + p.val; omega
      | ⟨1, _⟩ => rfl).trans ?_
    exact tailSum_apply A p _
  · refine (broadcastInDim_apply _ bcast_S_S10112 _ (ix1 p) ix0 (fun a => a.elim0)).trans ?_
    exact (constant_apply _ _).trans ofBits_one_f32

/-- The lines after the region at `(n, d)`. -/
theorem tail_apply (A : Vec Ideal S2x10112x256 .f32) (n : Fin 10000) (d : Fin 128) :
    tailFn A (ix2 n d)
      = (A (ix3 0 ⟨n.val, by omega⟩ ⟨d.val, by omega⟩) + A (ix3 1 ⟨n.val, by omega⟩ ⟨d.val, by omega⟩))
        * Ideal.rsqrt (max (A (ix3 0 ⟨n.val, by omega⟩ ⟨128, by omega⟩) + A (ix3 1 ⟨n.val, by omega⟩ ⟨128, by omega⟩)) 1) := by
  unfold tailFn
  refine (extractStridedSlice_apply _ _ slices_S10112x128_S10000x128_0_0 (ix2 n d) (ix2 (⟨n.val, by omega⟩ : Fin 10112) d) fun a => match a with
      | ⟨0, _⟩ => by show n.val = 0 + n.val; omega
      | ⟨1, _⟩ => by show d.val = 0 + d.val; omega).trans ?_
  refine (mulf_apply _ _ _).trans ?_
  refine congrArg₂ (· * ·) ?_ ?_
  · refine (extractStridedSlice_apply _ (tailSum A) slices_S10112x256_S10112x128_0_0 _ (ix2 (⟨n.val, by omega⟩ : Fin 10112) (⟨d.val, by omega⟩ : Fin 256)) fun a => match a with
      | ⟨0, _⟩ => by show n.val = 0 + n.val; omega
      | ⟨1, _⟩ => by show d.val = 0 + d.val; omega).trans ?_
    exact tailSum_apply A _ _
  · refine (broadcastInDim_apply _ bcast_S10112x1_S10112x128_0_1 _ _ (ix2 (⟨n.val, by omega⟩ : Fin 10112) (0 : Fin 1)) fun a => match a with
      | ⟨0, _⟩ => by show n.val = if (10112 : Nat) = 1 then 0 else n.val; rw [if_neg (by decide)]
      | ⟨1, _⟩ => by show 0 = if (1 : Nat) = 1 then 0 else d.val; rw [if_pos rfl]).trans ?_
    refine (broadcastInDim_apply _ bcast_S10112_S10112x1_0 _ _ (ix1 (⟨n.val, by omega⟩ : Fin 10112)) fun a => match a with
      | ⟨0, _⟩ => by show n.val = if (10112 : Nat) = 1 then 0 else n.val; rw [if_neg (by decide)]).trans ?_
    exact tailNorm_apply A _

variable (m : (ℓ : Loc nD τ sig) → Buf (Elt Ideal) ℓ) (ρ : Dev nD → PrngReg)

/-- The array the region leaves on core `c`, at its literal type. -/
abbrev outArr (c : Dev nD) : Vec Ideal S2x10112x256 .f32 := (dats m 0 c).arrAt 3 cfg0.N

/-- What the result buffer holds after the last line: the lines' function of the array the region leaves. -/
theorem tail_result (c : Dev nD) :
    Pipeline.afterTail₀ cfgs (dats m) 0 (V0 m) [hostOps1] c main_v21 = tailFn (outArr m c) := by
  unfold Pipeline.afterTail₀
  show StableHlo.after hostOps1 _ (Proc.devRef .tc main_v21) = _
  after_results
  have hA : Pipeline.withArrays (cfgs 0).spec c (V0 m c) (fun w => (dats m 0 c).arrAt w (cfgs 0).N) (Proc.devRef .tc main_v6) = outArr m c :=
    Pipeline.withArrays_arr spec0 launch0.win.arr_inj c _ _ 3
  rw [hA]
  rfl

/-- The kernel's run, its result read at every index through the lines after the region. -/
theorem run_tail : θ_run defs (onTc (τ := τ) (main (F := Ideal))) ⟨m, fun _ => 0, ρ⟩ fun r => ∀ c : Dev nD,
      (∀ (n : Fin 10000) (d : Fin 128),
        (r.2.mem ((c.tc : Thread nD τ).loc main_v21) : Vec Ideal S10000x128 .f32) (ix2 n d)
          = (outArr m c (ix3 0 ⟨n.val, by omega⟩ ⟨d.val, by omega⟩) + outArr m c (ix3 1 ⟨n.val, by omega⟩ ⟨d.val, by omega⟩))
            * Ideal.rsqrt (max (outArr m c (ix3 0 ⟨n.val, by omega⟩ ⟨128, by omega⟩) + outArr m c (ix3 1 ⟨n.val, by omega⟩ ⟨128, by omega⟩)) 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨fun n d =>
        (congrFun (((h c).2 main_v21 (Pipeline.mem_restRefs_of main_v21 (by decide) (by decide))).trans (tail_result m c)) (ix2 n d)).trans
          (tail_apply (outArr m c) n d),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.Bridge.lean ====
/-
  The two cores' accumulated blocks, added, are the aggregation and the degree.

  Core 0 accumulates grid points `0 … 1249`, core 1 points `1250 … 2499`; point `t` stages edges `256 t … 256 t + 255`,
  so the 2500 points partition the 640000 edges. At a node `n < 10000`: the one-hot product against the destination
  word is 1 exactly on the edges landing on `n`; with source words in `[0, 10000)` the one-hot sum over the padded
  table's rows selects the feature row `row (src e)`. Only commutativity and associativity of `+` on the extended
  reals and `0 · x = 0`, `1 · x = x` are used: no finiteness.
-/
import proofs.«419427_j20615843020934_1_alg».proof.Proof.Spec
import Mathlib.Algebra.BigOperators.Intervals
import Mathlib.Algebra.BigOperators.Group.Finset.Sigma
import Mathlib.Algebra.BigOperators.Group.Finset.Basic
import Mathlib.Order.Interval.Finset.Nat
import Mathlib.Data.EReal.Basic

noncomputable section

open Idealize.ShloMosaic Idealize.ShloMosaic.ValueIdx

namespace Cert.GraphAgg

/-! ## Words and numbers -/

/-- A 32-bit word whose signed reading is nonnegative reads the same unsigned. -/
private theorem toNat_eq_toInt_of_nonneg (s : BitVec 32) (h : 0 ≤ s.toInt) : (s.toNat : Int) = s.toInt := by
  have hlt := s.isLt
  rw [BitVec.toInt_eq_toNat_cond] at h ⊢
  split at h
  · rename_i hc; rw [if_pos hc]
  · omega

/-- For a number below `2^31`: a word is that number's word exactly when its signed reading is the number. -/
private theorem eq_ofNat_iff_toInt (w : BitVec 32) (n : ℕ) (hn : n < 2147483648) :
    w = BitVec.ofNat 32 n ↔ w.toInt = (n : Int) := by
  constructor
  · intro h
    have hw : w.toNat = n := by
      rw [h, BitVec.toNat_ofNat]; exact Nat.mod_eq_of_lt (by omega)
    rw [BitVec.toInt_eq_toNat_cond, hw, if_pos (by omega)]
  · intro h
    have h0 : (w.toNat : Int) = w.toInt := toNat_eq_toInt_of_nonneg w (by omega)
    apply BitVec.eq_of_toNat_eq
    rw [BitVec.toNat_ofNat, Nat.mod_eq_of_lt (by omega)]
    omega

/-- The one-hot answer against node `n`'s word is the indicator of the signed reading being `n`. -/
private theorem onehot_ofNat (w : BitVec 32) (n : ℕ) (hn : n < 10000) :
    onehot w (BitVec.ofNat 32 n) = if w.toInt = (n : Int) then 1 else 0 := by
  unfold onehot
  by_cases h : w.toInt = (n : Int)
  · rw [if_pos h, if_pos ((eq_ofNat_iff_toInt w n (by omega)).2 h)]
  · rw [if_neg h, if_neg (fun hc => h ((eq_ofNat_iff_toInt w n (by omega)).1 hc))]

/-! ## The extended row -/

/-- The one-hot sum over the padded table's rows selects the row the source word names. -/
private theorem ext_lt (feat : Fin 10000 → Fin 128 → EReal) (s : BitVec 32)
    (hs : 0 ≤ s.toInt ∧ s.toInt < 10000) (d : Fin 128) :
    ext s (padTbl feat) ⟨d.val, by omega⟩ = feat (row s) d := by
  have h0 : (s.toNat : Int) = s.toInt := toNat_eq_toInt_of_nonneg s hs.1
  have hlt : s.toNat < 10000 := by omega
  have hd : (⟨d.val, by omega⟩ : Fin 256).val < 128 := d.isLt
  unfold ext
  rw [dif_pos hd]
  rw [Finset.sum_eq_single (⟨s.toNat, by omega⟩ : Fin 10112)]
  · have h1 : onehot s (BitVec.ofNat 32 s.toNat) = 1 := by
      unfold onehot
      rw [if_pos]
      apply BitVec.eq_of_toNat_eq
      rw [BitVec.toNat_ofNat, Nat.mod_eq_of_lt (by omega)]
    show onehot s (BitVec.ofNat 32 s.toNat) * padTbl feat ⟨s.toNat, _⟩ ⟨d.val, _⟩ = _
    rw [h1, one_mul]
    unfold padTbl
    rw [dif_pos (show (⟨s.toNat, by omega⟩ : Fin 10112).val < 10000 from hlt)]
    have hr : row s = ⟨s.toNat, hlt⟩ := by
      unfold row
      apply Fin.ext
      show min s.toInt.toNat 9999 = s.toNat
      omega
    rw [hr]
  · intro b _ hb
    have h1 : onehot s (BitVec.ofNat 32 b.val) = 0 := by
      unfold onehot
      rw [if_neg]
      intro hc
      apply hb
      apply Fin.ext
      show b.val = s.toNat
      have hb' := b.isLt
      rw [hc, BitVec.toNat_ofNat, Nat.mod_eq_of_lt (by omega)]
    rw [h1, zero_mul]
  · intro hc
    exact absurd (Finset.mem_univ _) hc

/-- Beyond column 127 the extended row is the constant one. -/
private theorem ext_ge (s : BitVec 32) (tbl : Fin 10112 → Fin 128 → EReal) (j : Fin 256) (hj : ¬ j.val < 128) :
    ext s tbl j = 1 := by
  unfold ext
  rw [dif_neg hj]

/-! ## The 2500 blocks of 256 enumerate the edges once -/

private theorem Icc_eq_Ico_succ (a b : ℕ) : Finset.Icc a b = Finset.Ico a (b + 1) := by
  ext x
  simp only [Finset.mem_Icc, Finset.mem_Ico]
  omega

/-- Summing a function of the edge over the blocks of both cores is summing it over all edges. -/
private theorem sum_blocks (f : Fin 640000 → EReal) :
    (∑ t ∈ Finset.Icc 0 1249, ∑ e : Fin 256, f (edgeOf t e))
      + (∑ t ∈ Finset.Icc 1250 2499, ∑ e : Fin 256, f (edgeOf t e))
    = ∑ e : Fin 640000, f e := by
  rw [Icc_eq_Ico_succ 0 1249, Icc_eq_Ico_succ 1250 2499,
    Finset.sum_Ico_consecutive _ (by omega) (by omega), ← Finset.sum_product']
  refine Finset.sum_nbij' (fun p => edgeOf p.1 p.2)
    (fun e => (e.val / 256, ⟨e.val % 256, Nat.mod_lt _ (by omega)⟩)) ?_ ?_ ?_ ?_ ?_
  · intro p _
    exact Finset.mem_univ _
  · intro e _
    have he := e.isLt
    rw [Finset.mem_product]
    refine ⟨?_, Finset.mem_univ _⟩
    rw [Finset.mem_Ico]
    omega
  · intro p hp
    rw [Finset.mem_product, Finset.mem_Ico] at hp
    obtain ⟨t, e⟩ := p
    have ht : t < 2500 := by have := hp.1.2; omega
    have he := e.isLt
    apply Prod.ext
    · show (256 * t + e.val) % 640000 / 256 = t
      omega
    · apply Fin.ext
      show (256 * t + e.val) % 640000 % 256 = e.val
      omega
  · intro e _
    have he := e.isLt
    apply Fin.ext
    show (256 * (e.val / 256) + e.val % 256) % 640000 = e.val
    omega
  · intro p _
    rfl

/-- A sum of indicator products over all edges is the sum over the edges landing on `n`. -/
private theorem sum_onehot_mul (dst : Fin 640000 → BitVec 32) (n : Fin 10000) (x : Fin 640000 → EReal) :
    ∑ e : Fin 640000, onehot (dst e) (BitVec.ofNat 32 n.val) * x e = ∑ e ∈ hit dst n, x e := by
  unfold hit
  rw [Finset.sum_filter]
  apply Finset.sum_congr rfl
  intro e _
  rw [onehot_ofNat _ _ n.isLt]
  by_cases h : (dst e).toInt = (n.val : Int)
  · rw [if_pos h, if_pos h, one_mul]
  · rw [if_neg h, if_neg h, zero_mul]

/-! ## The two totals -/

/-- Columns `0 … 127` of the two cores' sums: the aggregated messages. -/
theorem total_agg (feat : Fin 10000 → Fin 128 → EReal) (src dst : Fin 640000 → BitVec 32)
    (hsrc : ∀ e, 0 ≤ (src e).toInt ∧ (src e).toInt < 10000) (n : Fin 10000) (d : Fin 128) :
    (∑ t ∈ Finset.Icc 0 1249, blockContrib feat src dst t ⟨n.val, by omega⟩ ⟨d.val, by omega⟩)
      + (∑ t ∈ Finset.Icc 1250 2499, blockContrib feat src dst t ⟨n.val, by omega⟩ ⟨d.val, by omega⟩)
    = agg feat src dst n d := by
  have key := sum_blocks (fun e => onehot (dst e) (BitVec.ofNat 32 n.val)
    * ext (src e) (padTbl feat) ⟨d.val, by omega⟩)
  refine (key.trans ?_)
  rw [sum_onehot_mul]
  unfold agg
  apply Finset.sum_congr rfl
  intro e _
  exact ext_lt feat (src e) (hsrc e) d

/-- Column `128` of the two cores' sums: the in-degree. -/
theorem total_deg (feat : Fin 10000 → Fin 128 → EReal) (src dst : Fin 640000 → BitVec 32) (n : Fin 10000) :
    (∑ t ∈ Finset.Icc 0 1249, blockContrib feat src dst t ⟨n.val, by omega⟩ ⟨128, by omega⟩)
      + (∑ t ∈ Finset.Icc 1250 2499, blockContrib feat src dst t ⟨n.val, by omega⟩ ⟨128, by omega⟩)
    = deg dst n := by
  have key := sum_blocks (fun e => onehot (dst e) (BitVec.ofNat 32 n.val)
    * ext (src e) (padTbl feat) ⟨128, by omega⟩)
  refine (key.trans ?_)
  rw [sum_onehot_mul]
  unfold deg
  apply Finset.sum_congr rfl
  intro e _
  exact ext_ge _ _ _ (by decide)

end Cert.GraphAgg

end
-- ==== Proof.KernelRun.lean ====
/-
  The kernel's run against the specification: with source words in `[0, 10000)` its result array is `GV` of the
  arguments — the tail's reading, the region's array, and the partition of the edges into the 2500 blocks, composed.
-/
import proofs.«419427_j20615843020934_1_alg».proof.Proof.KernelAccum
import proofs.«419427_j20615843020934_1_alg».proof.Proof.KernelTail
import proofs.«419427_j20615843020934_1_alg».proof.Proof.Bridge

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.GraphAgg

variable (m : (ℓ : Loc nD τ sig) → Buf (Elt Ideal) ℓ) (ρ : Dev nD → PrngReg)

theorem run_kernel
    (hsrc : ∀ (c : Dev nD) (e : Fin 640000), 0 ≤ (m ((c.tc : Thread nD τ).loc main_arg1) (ix1 e)).toInt
      ∧ (m ((c.tc : Thread nD τ).loc main_arg1) (ix1 e)).toInt < 10000) :
    θ_run defs (onTc (τ := τ) (main (F := Ideal))) ⟨m, fun _ => 0, ρ⟩ fun r => ∀ c : Dev nD,
      r.2.mem ((c.tc : Thread nD τ).loc main_v21)
        = GV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_tail m ρ)
  obtain ⟨hres, h0, h1, h2⟩ := h c
  refine ⟨?_, h0, h1, h2⟩
  funext i
  obtain ⟨n, d, rfl⟩ : ∃ (n : Fin 10000) (d : Fin 128), i = ix2 n d := ⟨i 0, i 1, eq_ix2 i⟩
  refine (hres n d).trans ?_
  -- the region's array, block by block, is each core's 1250 contributions
  have e0 : ∀ j : Fin 256, outArr m c (ix3 0 ⟨n.val, by omega⟩ j)
      = ∑ t ∈ Finset.Icc 0 1249, blockContrib (featOf m c) (srcOf m c) (dstOf m c) t ⟨n.val, by omega⟩ j :=
    fun j => final_apply m c 0 ⟨n.val, by omega⟩ j
  have e1 : ∀ j : Fin 256, outArr m c (ix3 1 ⟨n.val, by omega⟩ j)
      = ∑ t ∈ Finset.Icc 1250 2499, blockContrib (featOf m c) (srcOf m c) (dstOf m c) t ⟨n.val, by omega⟩ j :=
    fun j => final_apply m c 1 ⟨n.val, by omega⟩ j
  rw [e0, e1, e0, e1, total_agg (featOf m c) (srcOf m c) (dstOf m c) (hsrc c) n d,
    total_deg (featOf m c) (srcOf m c) (dstOf m c) n]
  rfl

end Cert.KernelIdeal.Val

end
-- ==== Proof.RefValue.lean ====
/-
  The reference's run against the specification: with source words in `[0, 10000)` its result array is `GV` of the
  arguments. The wrap of a negative index is the identity there; the gather reads feature row `row (src e)`; each
  scatter-add, exact over the extended reals, is the zero it starts from plus the sum of the updates whose
  destination word, read signed, is the row; and `max degree 1` raised to `-1/2` is its reciprocal square root.
-/
import proofs.«419427_j20615843020934_1_alg».proof.Defs
import proofs.«419427_j20615843020934_1_alg».proof.Proof.Gen.ReferenceIdeal.Read
import proofs.«419427_j20615843020934_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.GraphAgg

local notation "gD" => gather_S10000x128_S640000x1_S640000x128_1_0_n_n_0_1_1128

/-- The gather of rows, read at (e, d): the table at the row the start word selects (signed, clamped), column d. -/
private theorem gather_rows_apply {α : Type} (x : S10000x128.Idx → α) (idx : IVec S640000x1 32) (e : Fin 640000) (d : Fin 128) :
    Host.gather gD x idx (ix2 e d) = x (ix2 (row (idx (ix2 e 0))) d) := by
  unfold Host.gather
  congr 1
  funext a
  refine Fin.ext ?_
  match a with
  | ⟨0, _⟩ =>
    show GatherDims.start gD (ix2 e d) idx 0 + GatherDims.batchCoord gD (ix2 e d) 0 + GatherDims.offCoord gD (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gD).startIndexMap from List.mem_singleton.mpr rfl)]
    have hsi : (gD).siIdx (ix2 e d) ⟨List.idxOf (0 : Fin 2) (gD).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start gD (ix2 e d) idx 1 + GatherDims.batchCoord gD (ix2 e d) 1 + GatherDims.offCoord gD (ix2 e d) 1 = _
    rw [GatherDims.batchCoord_eq_zero _ _ _ List.not_mem_nil]
    unfold GatherDims.start
    rw [dif_neg (show ¬ (1 : Fin 2) ∈ (gD).startIndexMap by decide)]
    unfold GatherDims.offCoord
    rw [dif_pos (show (1 : Fin 2) ∈ (gD).sKept by decide)]
    simp only [Nat.zero_add]
    rfl

local notation "sR" => scatter_S10000x128_S640000x1_S640000x128_1_0_0_1

/-- Where the rows scatter lands update (e, d): on (n, c) exactly when e's destination word, read signed, is n and the
    columns agree. -/
private theorem scatter_rows_lands (idx : IVec S640000x1 32) (e : Fin 640000) (d : Fin 128) (n : Fin 10000) (c : Fin 128) :
    (sR).resultIdx? (ix2 e d) idx = some (ix2 n c) ↔ (idx (ix2 e 0)).toInt = (n.val : Int) ∧ d = c := by
  have hs0 : (sR).start (ix2 e d) idx 0 = (idx (ix2 e 0)).toInt := by
    unfold ScatterDims.start
    rw [dif_pos (show (0 : Fin 2) ∈ (sR).scatterDimsToOperandDims from List.mem_singleton.mpr rfl)]
    have hsi : (sR).siIdx (ix2 e d) ⟨List.idxOf (0 : Fin 2) (sR).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (sR).start (ix2 e d) idx 1 = 0 := by
    unfold ScatterDims.start
    rw [dif_neg (show ¬ (1 : Fin 2) ∈ (sR).scatterDimsToOperandDims by decide)]
  have hw0 : (sR).window (ix2 e d) 0 = 0 := by
    unfold ScatterDims.window
    rw [dif_neg (show ¬ (0 : Fin 2) ∈ (sR).sKept by decide)]
  have hw1 : (sR).window (ix2 e d) 1 = d.val := by
    unfold ScatterDims.window
    rw [dif_pos (show (1 : Fin 2) ∈ (sR).sKept by decide)]
    rfl
  unfold ScatterDims.resultIdx?
  constructor
  · intro h
    split at h
    · rename_i hc
      have h' := Option.some.inj h
      have h0 : ((sR).start (ix2 e d) idx 0 + ((sR).window (ix2 e d) 0 : Nat)).toNat = n.val :=
        congrArg (fun f : S10000x128.Idx => (f 0).val) h'
      have h1 : ((sR).start (ix2 e d) idx 1 + ((sR).window (ix2 e d) 1 : Nat)).toNat = c.val :=
        congrArg (fun f : S10000x128.Idx => (f 1).val) h'
      have c0 := (hc 0).1
      rw [hs0, hw0] at h0 c0
      rw [hs1, hw1] at h1
      refine ⟨by omega, Fin.ext (by omega)⟩
    · exact absurd h (by simp)
  · rintro ⟨hn, rfl⟩
    have hN := n.isLt
    have hD := d.isLt
    have hc : ∀ a, 0 ≤ (sR).start (ix2 e d) idx a + ((sR).window (ix2 e d) a : Nat)
        ∧ (sR).start (ix2 e d) idx a + ((sR).window (ix2 e d) a : Nat) < S10000x128.size a := by
      intro a
      match a with
      | ⟨0, _⟩ =>
        show 0 ≤ (sR).start (ix2 e d) idx 0 + ((sR).window (ix2 e d) 0 : Nat)
          ∧ (sR).start (ix2 e d) idx 0 + ((sR).window (ix2 e d) 0 : Nat) < (10000 : Nat)
        rw [hs0, hw0]; omega
      | ⟨1, _⟩ =>
        show 0 ≤ (sR).start (ix2 e d) idx 1 + ((sR).window (ix2 e d) 1 : Nat)
          ∧ (sR).start (ix2 e d) idx 1 + ((sR).window (ix2 e d) 1 : Nat) < (128 : Nat)
        rw [hs1, hw1]; omega
    rw [dif_pos hc]
    congr 1
    funext a
    refine Fin.ext ?_
    match a with
    | ⟨0, _⟩ =>
      show ((sR).start (ix2 e d) idx 0 + ((sR).window (ix2 e d) 0 : Nat)).toNat = n.val
      rw [hs0, hw0]; omega
    | ⟨1, _⟩ =>
      show ((sR).start (ix2 e d) idx 1 + ((sR).window (ix2 e d) 1 : Nat)).toNat = d.val
      rw [hs1, hw1]; omega

/-- The rows scatter-add read at (n, c): the operand there plus, over the edges whose destination word read signed
    is n, the update at (e, c). -/
private theorem scatterAdd_rows_apply (x : S10000x128.Idx → EReal) (idx : IVec S640000x1 32) (upd : S640000x128.Idx → EReal)
    (n : Fin 10000) (c : Fin 128) :
    Ideal.hostScatterAdd sR x idx upd (ix2 n c)
      = x (ix2 n c) + ∑ e ∈ Finset.univ.filter (fun e : Fin 640000 => (idx (ix2 e 0)).toInt = (n.val : Int)), upd (ix2 e c) := by
  unfold Ideal.hostScatterAdd
  refine congrArg (fun z : EReal => x (ix2 n c) + z) ?_
  refine Finset.sum_nbij' (fun j : S640000x128.Idx => (j 0 : Fin 640000)) (fun e : Fin 640000 => ix2 e c) ?_ ?_ ?_ ?_ ?_
  · intro j hj
    obtain ⟨e, d, rfl⟩ : ∃ (e : Fin 640000) (d : Fin 128), j = ix2 e d := ⟨j 0, j 1, eq_ix2 j⟩
    have h := (scatter_rows_lands idx e d n c).mp (Finset.mem_filter.mp hj).2
    exact Finset.mem_filter.mpr ⟨Finset.mem_univ _, h.1⟩
  · intro e he
    exact Finset.mem_filter.mpr ⟨Finset.mem_univ _,
      (scatter_rows_lands idx e c n c).mpr ⟨(Finset.mem_filter.mp he).2, rfl⟩⟩
  · intro j hj
    obtain ⟨e, d, rfl⟩ : ∃ (e : Fin 640000) (d : Fin 128), j = ix2 e d := ⟨j 0, j 1, eq_ix2 j⟩
    have h := (scatter_rows_lands idx e d n c).mp (Finset.mem_filter.mp hj).2
    show ix2 e c = ix2 e d
    rw [h.2]
  · intro e he
    rfl
  · intro j hj
    obtain ⟨e, d, rfl⟩ : ∃ (e : Fin 640000) (d : Fin 128), j = ix2 e d := ⟨j 0, j 1, eq_ix2 j⟩
    have h := (scatter_rows_lands idx e d n c).mp (Finset.mem_filter.mp hj).2
    show upd (ix2 e d) = upd (ix2 e c)
    rw [h.2]

local notation "sO" => scatter_S10000_S640000x1_S640000_n_0_0_1

/-- Where the vector scatter lands update e: on n exactly when e's destination word, read signed, is n. -/
private theorem scatter_ones_lands (idx : IVec S640000x1 32) (e : Fin 640000) (n : Fin 10000) :
    (sO).resultIdx? (ix1 e) idx = some (ix1 n) ↔ (idx (ix2 e 0)).toInt = (n.val : Int) := by
  have hs0 : (sO).start (ix1 e) idx 0 = (idx (ix2 e 0)).toInt := by
    unfold ScatterDims.start
    rw [dif_pos (show (0 : Fin 1) ∈ (sO).scatterDimsToOperandDims from List.mem_singleton.mpr rfl)]
    have hsi : (sO).siIdx (ix1 e) ⟨List.idxOf (0 : Fin 1) (sO).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sO).window (ix1 e) 0 = 0 := by
    unfold ScatterDims.window
    rw [dif_neg (show ¬ (0 : Fin 1) ∈ (sO).sKept by decide)]
  unfold ScatterDims.resultIdx?
  constructor
  · intro h
    split at h
    · rename_i hc
      have h' := Option.some.inj h
      have h0 : ((sO).start (ix1 e) idx 0 + ((sO).window (ix1 e) 0 : Nat)).toNat = n.val :=
        congrArg (fun f : S10000.Idx => (f 0).val) h'
      have c0 := (hc 0).1
      rw [hs0, hw0] at h0 c0
      omega
    · exact absurd h (by simp)
  · intro hn
    have hN := n.isLt
    have hc : ∀ a, 0 ≤ (sO).start (ix1 e) idx a + ((sO).window (ix1 e) a : Nat)
        ∧ (sO).start (ix1 e) idx a + ((sO).window (ix1 e) a : Nat) < S10000.size a := by
      intro a
      match a with
      | ⟨0, _⟩ =>
        show 0 ≤ (sO).start (ix1 e) idx 0 + ((sO).window (ix1 e) 0 : Nat)
          ∧ (sO).start (ix1 e) idx 0 + ((sO).window (ix1 e) 0 : Nat) < (10000 : Nat)
        rw [hs0, hw0]; omega
    rw [dif_pos hc]
    congr 1
    funext a
    refine Fin.ext ?_
    match a with
    | ⟨0, _⟩ =>
      show ((sO).start (ix1 e) idx 0 + ((sO).window (ix1 e) 0 : Nat)).toNat = n.val
      rw [hs0, hw0]; omega

/-- The vector scatter-add read at n: the operand there plus, over the edges whose destination word read signed is n,
    the update at e. -/
private theorem scatterAdd_ones_apply (x : S10000.Idx → EReal) (idx : IVec S640000x1 32) (upd : S640000.Idx → EReal)
    (n : Fin 10000) :
    Ideal.hostScatterAdd sO x idx upd (ix1 n)
      = x (ix1 n) + ∑ e ∈ Finset.univ.filter (fun e : Fin 640000 => (idx (ix2 e 0)).toInt = (n.val : Int)), upd (ix1 e) := by
  unfold Ideal.hostScatterAdd
  refine congrArg (fun z : EReal => x (ix1 n) + z) ?_
  refine Finset.sum_nbij' (fun j : S640000.Idx => (j 0 : Fin 640000)) (fun e : Fin 640000 => ix1 e) ?_ ?_ ?_ ?_ ?_
  · intro j hj
    obtain ⟨e, rfl⟩ : ∃ (e : Fin 640000), j = ix1 e := ⟨j 0, eq_ix1 j⟩
    exact Finset.mem_filter.mpr ⟨Finset.mem_univ _, (scatter_ones_lands idx e n).mp (Finset.mem_filter.mp hj).2⟩
  · intro e he
    exact Finset.mem_filter.mpr ⟨Finset.mem_univ _, (scatter_ones_lands idx e n).mpr (Finset.mem_filter.mp he).2⟩
  · intro j hj
    exact (eq_ix1 j).symm
  · intro e he
    rfl
  · intro j hj
    exact congrArg upd (eq_ix1 j)

/-- A word that is not negative is left alone by the wrap of negative indices. -/
private theorem wrap_eq (s : BitVec 32) (h : 0 ≤ s.toInt) :
    Scalar.select (IntOp.cmpi .slt s 0#32) (IntOp.addi s 10000#32) s = s := by
  have h0 : IntOp.cmpi .slt s 0#32 = 0#1 := by
    unfold IntOp.cmpi
    have hlt : s.slt 0#32 = false := by
      rw [BitVec.slt]
      simp only [BitVec.toInt_zero, decide_eq_false_iff_not, not_lt]
      exact h
    simp only [hlt]
    rfl
  rw [h0]
  exact select_zero _ _

/-- The stage arrays' types: the feature table and an edge list. -/
private abbrev Tbl : Type := (⟨S10000x128, .f32⟩ : BufTy).Contents (Elt Ideal)
private abbrev Edges : Type := (⟨S640000, .i32⟩ : BufTy).Contents (Elt Ideal)

/-- The start word the gather reads for edge e is the source word itself when that word is not negative. -/
private theorem src_word (x1 : Edges) (e : Fin 640000) (h : 0 ≤ (x1 (ix1 e)).toInt) :
    Read.val_main_v5 (F := Ideal) x1 (ix2 e 0) = x1 (ix1 e) := by
  have hi : Read.idx_main_v5 (ix2 e (0 : Fin 1)) = ix1 e := by
    funext a; match a with | ⟨0, _⟩ => rfl
  rw [Read.val_main_v5_apply, hi, Read.val_main_v4_apply, Read.val_main_v1_apply, Read.val_main_v3_apply,
    Read.val_main_v0_apply, Read.val_main_c_apply, Read.val_main_v2_apply, Read.val_main_c_0_apply]
  exact wrap_eq _ h

/-- The index word the rows scatter reads for edge e is the destination word. -/
private theorem dst_word_rows (x2 : Edges) (e : Fin 640000) : Read.val_main_v8 (F := Ideal) x2 (ix2 e 0) = x2 (ix1 e) := by
  have hi : Read.idx_main_v8 (ix2 e (0 : Fin 1)) = ix1 e := by
    funext a; match a with | ⟨0, _⟩ => rfl
  rw [Read.val_main_v8_apply, hi]

/-- The index word the degree scatter reads for edge e is the destination word. -/
private theorem dst_word_ones (x2 : Edges) (e : Fin 640000) : Read.val_main_v12 (F := Ideal) x2 (ix2 e 0) = x2 (ix1 e) := by
  have hi : Read.idx_main_v12 (ix2 e (0 : Fin 1)) = ix1 e := by
    funext a; match a with | ⟨0, _⟩ => rfl
  rw [Read.val_main_v12_apply, hi]

/-- The gathered row of edge e at column c: the table at row (src e). -/
private theorem gathered_row (x0 : Tbl) (x1 : Edges) (e : Fin 640000) (c : Fin 128) (h : 0 ≤ (x1 (ix1 e)).toInt) :
    Read.val_main_v6 (F := Ideal) x0 x1 (ix2 e c) = x0 (ix2 (row (x1 (ix1 e))) c) := by
  unfold Read.val_main_v6
  rw [gather_rows_apply, src_word x1 e h]

/-- The degree scatter's update is the constant one. -/
private theorem ones_update (e : Fin 640000) : Read.val_main_v10 (F := Ideal) (ix1 e) = (1 : EReal) := by
  rw [Read.val_main_v10_apply, Read.val_main_cst_1_apply]
  exact ofBits_one_f32

/-- At the exact instance the host's accumulating scatter is the sum form. -/
private theorem host_scatterAdd_eq {s si su : Shape} {φ : FTy} {w : Nat} (d : ScatterDims s si su) (x : FVec Ideal s φ)
    (idx : IVec si w) (upd : FVec Ideal su φ) :
    Host.scatterAdd (F := Ideal) d x idx upd = Ideal.hostScatterAdd d x idx upd := rfl

/-- The rows scatter's result at (n, c) is the aggregated messages. -/
private theorem agg_eq (x0 : Tbl) (x1 x2 : Edges) (hsrc : ∀ e : Fin 640000, 0 ≤ (x1 (ix1 e)).toInt) (n : Fin 10000) (c : Fin 128) :
    Read.val_main_v9 (F := Ideal) x0 x1 x2 (ix2 n c)
      = agg (fun r d => x0 (ix2 r d)) (fun e => x1 (ix1 e)) (fun e => x2 (ix1 e)) n c := by
  unfold Read.val_main_v9
  rw [host_scatterAdd_eq, scatterAdd_rows_apply, Read.val_main_v7_apply, Read.val_main_cst_apply,
    Ideal.ofBits_def, Ideal.ofBits_zero_f32, zero_add]
  unfold agg hit
  simp only [dst_word_rows]
  exact Finset.sum_congr (by with_reducible rfl) (fun e _ => gathered_row x0 x1 e c (hsrc e))

/-- The degree scatter's result at n is the in-degree. -/
private theorem deg_eq (x2 : Edges) (n : Fin 10000) :
    Read.val_main_v13 (F := Ideal) x2 (ix1 n) = deg (fun e => x2 (ix1 e)) n := by
  unfold Read.val_main_v13
  rw [host_scatterAdd_eq, scatterAdd_ones_apply, Read.val_main_v11_apply, Read.val_main_cst_2_apply,
    Ideal.ofBits_def, Ideal.ofBits_zero_f32, zero_add]
  unfold deg hit
  simp only [dst_word_ones, ones_update]

/-- The broadcast normaliser at (n, c): the reciprocal square root of max (degree of n) 1. -/
private theorem norm_eq (x2 : Edges) (n : Fin 10000) (c : Fin 128) :
    Read.val_main_v19 (F := Ideal) x2 (ix2 n c) = Ideal.rsqrt (max (deg (fun e => x2 (ix1 e)) n) 1) := by
  have hi : Read.idx_main_v18 (Read.idx_main_v19 (ix2 n c)) = ix1 n := by
    funext a; match a with | ⟨0, _⟩ => rfl
  rw [Read.val_main_v19_apply, Read.val_main_v18_apply, hi, Read.val_main_v17_apply, Read.val_main_v15_apply,
    Read.val_main_v16_apply, Read.val_main_cst_4_apply, Read.val_main_v14_apply, Read.val_main_cst_3_apply, deg_eq,
    Ideal.hostPowf_def, Ideal.maximumf_def, Ideal.ofBits_def, Ideal.ofBits_def, ofBits_one_f32]
  exact pow_deg_eq_rsqrt _ n

/-- The reference's composed term is the specification's array, when no source word is negative. -/
private theorem result_eq (x0 : Tbl) (x1 x2 : Edges)
    (hsrc : ∀ e : Fin 640000, 0 ≤ (x1 (ix1 e)).toInt ∧ (x1 (ix1 e)).toInt < 10000) :
    Read.val_main_v20 (F := Ideal) x0 x1 x2 = GV x0 x1 x2 := by
  funext i
  obtain ⟨n, c, rfl⟩ : ∃ (n : Fin 10000) (c : Fin 128), i = ix2 n c := ⟨i 0, i 1, eq_ix2 i⟩
  rw [Read.val_main_v20_apply, Ideal.mulf_def, agg_eq x0 x1 x2 (fun e => (hsrc e).1), norm_eq]
  rfl

variable (m : (ℓ : Loc nD τ sig) → Buf (Elt Ideal) ℓ) (ρ : Dev nD → PrngReg)

theorem run_ref
    (hsrc : ∀ (c : Dev nD) (e : Fin 640000), 0 ≤ (m ((c.tc : Thread nD τ).loc main_arg1) (ix1 e)).toInt
      ∧ (m ((c.tc : Thread nD τ).loc main_arg1) (ix1 e)).toInt < 10000) :
    θ_run defs (onTc (τ := τ) (main (F := Ideal))) ⟨m, fun _ => 0, ρ⟩ fun r => ∀ c : Dev nD,
      r.2.mem ((c.tc : Thread nD τ).loc main_v20)
        = GV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  exact (Read.val_main_v20_eq _ _ _).trans (result_eq _ _ _ (hsrc c))

end Cert.ReferenceIdeal.RefValue

end
-- ==== Proof.Pre.lean ====
/-
  What the precondition says of the source words: each, read signed, lies in `[0, 10000)`.
  (Its first conjunct, that every feature is finite, is not used by the proof.)
-/
import proofs.«419427_j20615843020934_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreRead

open Cert.Pre_finite_inputs

/-- The result shape of a full reduction has exactly one index (the empty one). -/
private instance scalarIdxSubsingleton : Subsingleton S_.Idx := ⟨fun a b => funext fun d => d.elim0⟩

theorem src_range {F : FTy → Type} [FloatOps F] [Cert.Pre_finite_inputs.Facts]
    (feat : FVec F S10000x128 .f32) (src dst : IVec S640000 32)
    (h : Cert.Pre_finite_inputs.fn (F := F) feat src dst = fun _ => 1#1) (e : Fin 640000) :
    0 ≤ (src (ix1 e)).toInt ∧ (src (ix1 e)).toInt < 10000 := by
  -- the predicate's one value, a conjunction of three "all" reductions, is 1
  have h0 := congrFun h ix0
  unfold Cert.Pre_finite_inputs.fn at h0
  dsimp only at h0
  obtain ⟨h12, h3⟩ := IntOp.andi_eq_one.1 h0
  obtain ⟨_, h2⟩ := IntOp.andi_eq_one.1 h12
  -- each of the last two says its compare holds at every edge, in particular at e
  have hge := Host.reduce_andi_all _ _ _ _ _ h2 (ix1 e)
  have hlt := Host.reduce_andi_all _ _ _ _ _ h3 (ix1 e)
  -- a signed compare that is 1 is the order of the signed values; the right-hand words are the literals 0 and 10000
  have hge' : (0#32 : BitVec 32).toInt ≤ (src (ix1 e)).toInt := IntOp.cmpi_sge.1 hge
  have hlt' : (src (ix1 e)).toInt < (10000#32 : BitVec 32).toInt := IntOp.cmpi_slt.1 hlt
  have z : (0#32 : BitVec 32).toInt = 0 := by decide
  have t : (10000#32 : BitVec 32).toInt = 10000 := by decide
  rw [z] at hge'
  rw [t] at hlt'
  exact ⟨hge', hlt'⟩

end Cert.PreRead

end
-- ==== Proof.lean ====
/-
  Degree-normalised sum aggregation over a graph's edges, computed two ways.

  The reference gathers feature row `src e` for each of the 640000 edges, scatter-adds it into row `dst e` of the
  result, counts the edges landing on each row the same way, and scales row `n` by `(max (deg n) 1)^(-1/2)`.
  The kernel never indexes: per block of 256 edges it forms the 0/1 comparisons of the source and destination words
  with all node numbers and takes two matrix products — one selects the feature rows, the other adds them, and a
  block of ones beside them, into an accumulator; each of two cores accumulates half the blocks, and the host adds
  the halves, reads the degree off a ones column, and scales by the reciprocal square root.

  Over the extended reals both are `GV` (Proof/Spec.lean) of the arguments, provided every source word lies in
  `[0, 10000)`, which the precondition states: the kernel's run is Proof/KernelRun.lean, the reference's
  Proof/RefValue.lean, the precondition's reading Proof/Pre.lean. The three frames are the generated ones (the
  reference's frame is its run with the result dropped); the idealisation rewrote nothing.
-/
import proofs.«419427_j20615843020934_1_alg».proof.Defs
import proofs.«419427_j20615843020934_1_alg».proof.Proof.Gen.Kernel
import proofs.«419427_j20615843020934_1_alg».proof.Proof.Gen.Kernel.Skeleton
import proofs.«419427_j20615843020934_1_alg».proof.Proof.Gen.Kernel.Launch
import proofs.«419427_j20615843020934_1_alg».proof.Proof.Gen.Kernel.Points
import proofs.«419427_j20615843020934_1_alg».proof.Proof.Gen.Kernel.Frame
import proofs.«419427_j20615843020934_1_alg».proof.Proof.Gen.KernelIdeal
import proofs.«419427_j20615843020934_1_alg».proof.Proof.Gen.KernelIdeal.Skeleton
import proofs.«419427_j20615843020934_1_alg».proof.Proof.Gen.KernelIdeal.Launch
import proofs.«419427_j20615843020934_1_alg».proof.Proof.Gen.KernelIdeal.Points
import proofs.«419427_j20615843020934_1_alg».proof.Proof.Gen.KernelIdeal.Frame
import proofs.«419427_j20615843020934_1_alg».proof.Proof.Gen.ReferenceIdeal
import proofs.«419427_j20615843020934_1_alg».proof.Proof.Gen.ReferenceIdeal.Run
import proofs.«419427_j20615843020934_1_alg».proof.Proof.Gen.Pre_finite_inputs
import proofs.«419427_j20615843020934_1_alg».proof.Proof.KernelRun
import proofs.«419427_j20615843020934_1_alg».proof.Proof.RefValue
import proofs.«419427_j20615843020934_1_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `GV` of arguments that agree; the source words' range is read off the precondition. -/
theorem algebraic : Cert.algebraic_KernelIdeal_ReferenceIdeal := by
  intro m ρ m' ρ' hpre hagree
  have hsrc : ∀ (c : Dev Cert.KernelIdeal.nD) (e : Fin 640000),
      0 ≤ (m ((c.tc : Thread Cert.KernelIdeal.nD Cert.KernelIdeal.τ).loc Cert.KernelIdeal.main_arg1) (ix1 e)).toInt
      ∧ (m ((c.tc : Thread Cert.KernelIdeal.nD Cert.KernelIdeal.τ).loc Cert.KernelIdeal.main_arg1) (ix1 e)).toInt < 10000 :=
    fun c e => Cert.PreRead.src_range (F := Ideal) _ _ _ (hpre c) e
  have hsrc' : ∀ (c : Dev Cert.ReferenceIdeal.nD) (e : Fin 640000),
      0 ≤ (m' ((c.tc : Thread Cert.ReferenceIdeal.nD Cert.ReferenceIdeal.τ).loc Cert.ReferenceIdeal.main_arg1) (ix1 e)).toInt
      ∧ (m' ((c.tc : Thread Cert.ReferenceIdeal.nD Cert.ReferenceIdeal.τ).loc Cert.ReferenceIdeal.main_arg1) (ix1 e)).toInt < 10000 := by
    intro c e
    rw [(hagree c).2.1]
    exact hsrc c e
  refine ⟨_, Cert.KernelIdeal.Val.run_kernel m ρ hsrc, ?_⟩
  refine (θ_run Cert.ReferenceIdeal.defs _ _).mono (fun _ h c => ⟨(h c).1.trans ?_, (h c).2⟩)
    (Cert.ReferenceIdeal.RefValue.run_ref m' ρ' hsrc')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
